-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x100000x3 : Shape := ⟨3, ![4, 100000, 3]⟩
abbrev S4x100000x32 : Shape := ⟨3, ![4, 100000, 32]⟩
abbrev S_ : Shape := ⟨0, ![]⟩

class Facts : Prop where
  bcast_S_S4x100000x3 : S_.BroadcastsInDim S4x100000x3 (![] : Fin 0 → Fin S4x100000x3.rank)
  reducesTo_S4x100000x3_S_d0_1_2 : S4x100000x3.ReducesTo [0, 1, 2] S_
  h_S_ : 0 < S_.numel

variable [Facts]

def fn {F : FTy → Type} [FloatOps F] (main_arg0 : FVec F S4x100000x3 .f32) (main_arg1 : IVec S4x100000x32 32) : IVec S_ 1 :=
  let main_v0 : FVec F S4x100000x3 .f32 := Host.absf main_arg0
  let main_cst : FVec F S_ .f32 := constant S_ .f32 0x7F800000#32
  let main_v1 : FVec F S4x100000x3 .f32 := broadcastInDim S4x100000x3 ![] bcast_S_S4x100000x3 main_cst
  let main_v2 : IVec S4x100000x3 1 := cmpf .olt main_v0 main_v1
  let main_c : IVec S_ 1 := constantI S_ 1 1#1
  let main_v3 : IVec S_ 1 := (fun x v => Host.reduce IntOp.andi x v reducesTo_S4x100000x3_S_d0_1_2 h_S_) main_v2 main_c
  main_v3
-- ==== Kernel.lean ====
abbrev S4x100000x3 : Shape := ⟨3, ![4, 100000, 3]⟩
abbrev S4x100000x32 : Shape := ⟨3, ![4, 100000, 32]⟩
abbrev S_ : Shape := ⟨0, ![]⟩
abbrev S4x100000x32x1 : Shape := ⟨4, ![4, 100000, 32, 1]⟩
abbrev S4x100000x32x3 : Shape := ⟨4, ![4, 100000, 32, 3]⟩
abbrev S4x100000x3x32 : Shape := ⟨4, ![4, 100000, 3, 32]⟩
abbrev S4x100000x96 : Shape := ⟨3, ![4, 100000, 96]⟩
abbrev S1x1000x3 : Shape := ⟨3, ![1, 1000, 3]⟩
abbrev S1x1000x96 : Shape := ⟨3, ![1, 1000, 96]⟩
abbrev S1000x3 : Shape := ⟨2, ![1000, 3]⟩
abbrev S1000 : Shape := ⟨1, ![1000]⟩
abbrev S1000x1 : Shape := ⟨2, ![1000, 1]⟩
abbrev S1x1000x32 : Shape := ⟨3, ![1, 1000, 32]⟩
abbrev S1000x32 : Shape := ⟨2, ![1000, 32]⟩
abbrev S1x1000x1 : Shape := ⟨3, ![1, 1000, 1]⟩

abbrev nBuf : Space → Nat
  | .hbm => 14
  | .vmem => 6
  | .smem => 0
  | _ => 0

abbrev bufTy : (tb : Table) → Fin (tcTables nBuf tb) → BufTy
  | .hbm, ⟨0, _⟩ => ⟨S4x100000x3, .f32⟩
  | .hbm, ⟨1, _⟩ => ⟨S4x100000x32, .i32⟩
  | .hbm, ⟨2, _⟩ => ⟨S_, .i32⟩
  | .hbm, ⟨3, _⟩ => ⟨S4x100000x32, .i32⟩
  | .hbm, ⟨4, _⟩ => ⟨S4x100000x32, .i1⟩
  | .hbm, ⟨5, _⟩ => ⟨S_, .i32⟩
  | .hbm, ⟨6, _⟩ => ⟨S4x100000x32, .i32⟩
  | .hbm, ⟨7, _⟩ => ⟨S4x100000x32, .i32⟩
  | .hbm, ⟨8, _⟩ => ⟨S4x100000x32, .i32⟩
  | .hbm, ⟨9, _⟩ => ⟨S4x100000x32x1, .i32⟩
  | .hbm, ⟨10, _⟩ => ⟨S4x100000x32x3, .f32⟩
  | .hbm, ⟨11, _⟩ => ⟨S4x100000x3x32, .f32⟩
  | .hbm, ⟨12, _⟩ => ⟨S4x100000x96, .f32⟩
  | .hbm, ⟨13, _⟩ => ⟨S4x100000x3, .f32⟩
  | .local _ .vmem, ⟨0, _⟩ => ⟨S1x1000x3, .f32⟩
  | .local _ .vmem, ⟨1, _⟩ => ⟨S1x1000x3, .f32⟩
  | .local _ .vmem, ⟨2, _⟩ => ⟨S1x1000x96, .f32⟩
  | .local _ .vmem, ⟨3, _⟩ => ⟨S1x1000x96, .f32⟩
  | .local _ .vmem, ⟨4, _⟩ => ⟨S1x1000x3, .f32⟩
  | .local _ .vmem, ⟨5, _⟩ => ⟨S1x1000x3, .f32⟩
  | _, _ => ⟨S4x100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 100], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1000x96 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1000x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bcast_S_S4x100000x32 : S_.BroadcastsInDim S4x100000x32 (![] : Fin 0 → Fin S4x100000x32.rank)
  bcast_S4x100000x32_S4x100000x32x1_0_1_2 : S4x100000x32.BroadcastsInDim S4x100000x32x1 (![0, 1, 2] : Fin 3 → Fin S4x100000x32x1.rank)
  transposes_S4x100000x32x3_S4x100000x3x32_0_1_3_2 : S4x100000x32x3.Transposes [0, 1, 3, 2] S4x100000x3x32
  shapeCasts_S4x100000x3x32_S4x100000x96 : S4x100000x3x32.ShapeCasts S4x100000x96
  inb_S1x1000x3_S1x1000x3_0_0_0 : ∀ a, (![0, 0, 0] : Fin 3 → Nat) a + S1x1000x3.size a ≤ S1x1000x3.size a
  h_S1x1000x3 : 0 < S1x1000x3.numel
  shapeCasts_S1x1000x3_S1000x3 : S1x1000x3.ShapeCasts S1000x3
  reduces_S1000x3_S1000 : S1000x3.Reduces [1] S1000
  shapeCasts_S1000_S1000x1 : S1000.ShapeCasts S1000x1
  broadcasts_S1000x1_S1000x3 : S1000x1.Broadcasts S1000x3
  slices_S1000x3_o0_0_S1000x1 : S1000x3.Slices ![0, 0] S1000x1
  slices_S1000x3_o0_1_S1000x1 : S1000x3.Slices ![0, 1] S1000x1
  slices_S1000x3_o0_2_S1000x1 : S1000x3.Slices ![0, 2] S1000x1
  inb_S1x1000x96_S1x1000x32_0_0_0 : ∀ a, (![0, 0, 0] : Fin 3 → Nat) a + S1x1000x32.size a ≤ S1x1000x96.size a
  h_S1x1000x32 : 0 < S1x1000x32.numel
  shapeCasts_S1x1000x32_S1000x32 : S1x1000x32.ShapeCasts S1000x32
  inb_S1x1000x96_S1x1000x32_0_0_32 : ∀ a, (![0, 0, 32] : Fin 3 → Nat) a + S1x1000x32.size a ≤ S1x1000x96.size a
  inb_S1x1000x96_S1x1000x32_0_0_64 : ∀ a, (![0, 0, 64] : Fin 3 → Nat) a + S1x1000x32.size a ≤ S1x1000x96.size a
  broadcasts_S1000x1_S1000x32 : S1000x1.Broadcasts S1000x32
  reduces_S1000x32_S1000 : S1000x32.Reduces [1] S1000
  inb_S1x1000x3_S1x1000x1_0_0_0 : ∀ a, (![0, 0, 0] : Fin 3 → Nat) a + S1x1000x1.size a ≤ S1x1000x3.size a
  h_S1x1000x1 : 0 < S1x1000x1.numel
  shapeCasts_S1x1000x1_S1000x1 : S1x1000x1.ShapeCasts S1000x1
  shapeCasts_S1000x1_S1x1000x1 : S1000x1.ShapeCasts S1x1000x1
  inb_S1x1000x3_S1x1000x1_0_0_1 : ∀ a, (![0, 0, 1] : Fin 3 → Nat) a + S1x1000x1.size a ≤ S1x1000x3.size a
  inb_S1x1000x3_S1x1000x1_0_0_2 : ∀ a, (![0, 0, 2] : Fin 3 → Nat) a + S1x1000x1.size a ≤ S1x1000x3.size a
  gather_S4x100000x3_S4x100000x32x1_S4x100000x32x3_3_1_0_0_1_3_113_wf : GatherDims.WF S4x100000x3 S4x100000x32x1 S4x100000x32x3 [3] [1] [0] [1] [0] 3 ![1, 1, 3]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1000x3.size a ≤ S4x100000x3.size a
  hwx0_0 : ∀ i : grid0.Coords, EltTy.bits .f32 = 32 ∨ (Rect.block (s := S4x100000x3) S1x1000x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1000x96.size a ≤ S4x100000x96.size a
  hwx0_1 : ∀ i : grid0.Coords, EltTy.bits .f32 = 32 ∨ (Rect.block (s := S4x100000x96) S1x1000x96.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1000x3.size a ≤ S4x100000x3.size a
  hwx0_2 : ∀ i : grid0.Coords, EltTy.bits .f32 = 32 ∨ (Rect.block (s := S4x100000x3) S1x1000x3.size (cc0_transform_2 i) (hinb0_2 i)).WholeWords (EltTy.packing .f32)

variable [Facts₀]

def gather_S4x100000x3_S4x100000x32x1_S4x100000x32x3_3_1_0_0_1_3_113 : GatherDims S4x100000x3 S4x100000x32x1 S4x100000x32x3 where
  offsetDims := [3]
  collapsedSliceDims := [1]
  operandBatchingDims := [0]
  startIndicesBatchingDims := [0]
  startIndexMap := [1]
  indexVectorDim := 3
  sliceSizes := ![1, 1, 3]
  wf := gather_S4x100000x3_S4x100000x32x1_S4x100000x32x3_3_1_0_0_1_3_113_wf

abbrev win0_0 : Pipeline.Window sig grid0 :=
  Pipeline.Window.ofSpec (Memref.whole main_arg0) S1x1000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S1x1000x96.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x1000x3.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x100000x3 : Shape := ⟨3, ![4, 100000, 3]⟩
abbrev S4x100000x32 : Shape := ⟨3, ![4, 100000, 32]⟩
abbrev S_ : Shape := ⟨0, ![]⟩
abbrev S4x100000x32x1 : Shape := ⟨4, ![4, 100000, 32, 1]⟩
abbrev S4x100000x32x3 : Shape := ⟨4, ![4, 100000, 32, 3]⟩
abbrev S4x100000 : Shape := ⟨2, ![4, 100000]⟩
abbrev S4x100000x1 : Shape := ⟨3, ![4, 100000, 1]⟩
abbrev S4x100000x1x3 : Shape := ⟨4, ![4, 100000, 1, 3]⟩

abbrev nBuf : Space → Nat
  | .hbm => 97
  | .vmem => 0
  | .smem => 0
  | _ => 0

abbrev bufTy : (tb : Table) → Fin (tcTables nBuf tb) → BufTy
  | .hbm, ⟨0, _⟩ => ⟨S4x100000x3, .f32⟩
  | .hbm, ⟨1, _⟩ => ⟨S4x100000x32, .i32⟩
  | .hbm, ⟨2, _⟩ => ⟨S_, .i32⟩
  | .hbm, ⟨3, _⟩ => ⟨S4x100000x32, .i32⟩
  | .hbm, ⟨4, _⟩ => ⟨S4x100000x32, .i1⟩
  | .hbm, ⟨5, _⟩ => ⟨S_, .i32⟩
  | .hbm, ⟨6, _⟩ => ⟨S4x100000x32, .i32⟩
  | .hbm, ⟨7, _⟩ => ⟨S4x100000x32, .i32⟩
  | .hbm, ⟨8, _⟩ => ⟨S4x100000x32, .i32⟩
  | .hbm, ⟨9, _⟩ => ⟨S4x100000x32x1, .i32⟩
  | .hbm, ⟨10, _⟩ => ⟨S4x100000x32x3, .f32⟩
  | .hbm, ⟨11, _⟩ => ⟨S4x100000x3, .f32⟩
  | .hbm, ⟨12, _⟩ => ⟨S_, .f32⟩
  | .hbm, ⟨13, _⟩ => ⟨S4x100000, .f32⟩
  | .hbm, ⟨14, _⟩ => ⟨S4x100000x1, .f32⟩
  | .hbm, ⟨15, _⟩ => ⟨S4x100000x1, .f32⟩
  | .hbm, ⟨16, _⟩ => ⟨S_, .f32⟩
  | .hbm, ⟨17, _⟩ => ⟨S4x100000x1, .f32⟩
  | .hbm, ⟨18, _⟩ => ⟨S4x100000x1, .i1⟩
  | .hbm, ⟨19, _⟩ => ⟨S_, .f32⟩
  | .hbm, ⟨20, _⟩ => ⟨S_, .f32⟩
  | .hbm, ⟨21, _⟩ => ⟨S4x100000x1, .f32⟩
  | .hbm, ⟨22, _⟩ => ⟨S4x100000x1, .f32⟩
  | .hbm, ⟨23, _⟩ => ⟨S4x100000x1, .f32⟩
  | .hbm, ⟨24, _⟩ => ⟨S4x100000x1, .f32⟩
  | .hbm, ⟨25, _⟩ => ⟨S_, .f32⟩
  | .hbm, ⟨26, _⟩ => ⟨S4x100000x1, .f32⟩
  | .hbm, ⟨27, _⟩ => ⟨S4x100000x1, .i1⟩
  | .hbm, ⟨28, _⟩ => ⟨S_, .f32⟩
  | .hbm, ⟨29, _⟩ => ⟨S4x100000x1, .f32⟩
  | .hbm, ⟨30, _⟩ => ⟨S4x100000x1, .f32⟩
  | .hbm, ⟨31, _⟩ => ⟨S4x100000x1, .f32⟩
  | .hbm, ⟨32, _⟩ => ⟨S4x100000x1, .f32⟩
  | .hbm, ⟨33, _⟩ => ⟨S4x100000x3, .f32⟩
  | .hbm, ⟨34, _⟩ => ⟨S4x100000x3, .f32⟩
  | .hbm, ⟨35, _⟩ => ⟨S4x100000x32x3, .f32⟩
  | .hbm, ⟨36, _⟩ => ⟨S_, .f32⟩
  | .hbm, ⟨37, _⟩ => ⟨S4x100000x32, .f32⟩
  | .hbm, ⟨38, _⟩ => ⟨S4x100000x32x1, .f32⟩
  | .hbm, ⟨39, _⟩ => ⟨S4x100000x32x1, .f32⟩
  | .hbm, ⟨40, _⟩ => ⟨S_, .f32⟩
  | .hbm, ⟨41, _⟩ => ⟨S4x100000x32x1, .f32⟩
  | .hbm, ⟨42, _⟩ => ⟨S4x100000x32x1, .i1⟩
  | .hbm, ⟨43, _⟩ => ⟨S_, .f32⟩
  | .hbm, ⟨44, _⟩ => ⟨S_, .f32⟩
  | .hbm, ⟨45, _⟩ => ⟨S4x100000x32x1, .f32⟩
  | .hbm, ⟨46, _⟩ => ⟨S4x100000x32x1, .f32⟩
  | .hbm, ⟨47, _⟩ => ⟨S4x100000x32x1, .f32⟩
  | .hbm, ⟨48, _⟩ => ⟨S4x100000x32x1, .f32⟩
  | .hbm, ⟨49, _⟩ => ⟨S_, .f32⟩
  | .hbm, ⟨50, _⟩ => ⟨S4x100000x32x1, .f32⟩
  | .hbm, ⟨51, _⟩ => ⟨S4x100000x32x1, .i1⟩
  | .hbm, ⟨52, _⟩ => ⟨S_, .f32⟩
  | .hbm, ⟨53, _⟩ => ⟨S4x100000x32x1, .f32⟩
  | .hbm, ⟨54, _⟩ => ⟨S4x100000x32x1, .f32⟩
  | .hbm, ⟨55, _⟩ => ⟨S4x100000x32x1, .f32⟩
  | .hbm, ⟨56, _⟩ => ⟨S4x100000x32x1, .f32⟩
  | .hbm, ⟨57, _⟩ => ⟨S4x100000x32x3, .f32⟩
  | .hbm, ⟨58, _⟩ => ⟨S4x100000x32x3, .f32⟩
  | .hbm, ⟨59, _⟩ => ⟨S4x100000x1x3, .f32⟩
  | .hbm, ⟨60, _⟩ => ⟨S4x100000x32x3, .f32⟩
  | .hbm, ⟨61, _⟩ => ⟨S4x100000x32x3, .f32⟩
  | .hbm, ⟨62, _⟩ => ⟨S4x100000x32x3, .f32⟩
  | .hbm, ⟨63, _⟩ => ⟨S_, .f32⟩
  | .hbm, ⟨64, _⟩ => ⟨S4x100000x32, .f32⟩
  | .hbm, ⟨65, _⟩ => ⟨S4x100000x32, .f32⟩
  | .hbm, ⟨66, _⟩ => ⟨S_, .f32⟩
  | .hbm, ⟨67, _⟩ => ⟨S4x100000x32, .f32⟩
  | .hbm, ⟨68, _⟩ => ⟨S4x100000x32, .f32⟩
  | .hbm, ⟨69, _⟩ => ⟨S4x100000x32, .f32⟩
  | .hbm, ⟨70, _⟩ => ⟨S4x100000x32x1, .f32⟩
  | .hbm, ⟨71, _⟩ => ⟨S4x100000x32x3, .f32⟩
  | .hbm, ⟨72, _⟩ => ⟨S4x100000x32x3, .f32⟩
  | .hbm, ⟨73, _⟩ => ⟨S_, .f32⟩
  | .hbm, ⟨74, _⟩ => ⟨S4x100000x3, .f32⟩
  | .hbm, ⟨75, _⟩ => ⟨S_, .f32⟩
  | .hbm, ⟨76, _⟩ => ⟨S4x100000, .f32⟩
  | .hbm, ⟨77, _⟩ => ⟨S4x100000x1, .f32⟩
  | .hbm, ⟨78, _⟩ => ⟨S_, .f32⟩
  | .hbm, ⟨79, _⟩ => ⟨S4x100000x1, .f32⟩
  | .hbm, ⟨80, _⟩ => ⟨S4x100000x1, .i1⟩
  | .hbm, ⟨81, _⟩ => ⟨S_, .f32⟩
  | .hbm, ⟨82, _⟩ => ⟨S_, .f32⟩
  | .hbm, ⟨83, _⟩ => ⟨S4x100000x1, .f32⟩
  | .hbm, ⟨84, _⟩ => ⟨S4x100000x1, .f32⟩
  | .hbm, ⟨85, _⟩ => ⟨S4x100000x1, .f32⟩
  | .hbm, ⟨86, _⟩ => ⟨S4x100000x1, .f32⟩
  | .hbm, ⟨87, _⟩ => ⟨S_, .f32⟩
  | .hbm, ⟨88, _⟩ => ⟨S4x100000x1, .f32⟩
  | .hbm, ⟨89, _⟩ => ⟨S4x100000x1, .i1⟩
  | .hbm, ⟨90, _⟩ => ⟨S_, .f32⟩
  | .hbm, ⟨91, _⟩ => ⟨S4x100000x1, .f32⟩
  | .hbm, ⟨92, _⟩ => ⟨S4x100000x1, .f32⟩
  | .hbm, ⟨93, _⟩ => ⟨S4x100000x1, .f32⟩
  | .hbm, ⟨94, _⟩ => ⟨S4x100000x1, .f32⟩
  | .hbm, ⟨95, _⟩ => ⟨S4x100000x3, .f32⟩
  | .hbm, ⟨96, _⟩ => ⟨S4x100000x3, .f32⟩
  | _, _ => ⟨S4x100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_v0 : Ref sig .tc := ⟨.hbm, 11, rfl⟩
abbrev main_call0_cst : Ref sig .tc := ⟨.hbm, 12, rfl⟩
abbrev main_call0_v1 : Ref sig .tc := ⟨.hbm, 13, rfl⟩
abbrev main_call0_v2 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_cst_2 : Ref sig .tc := ⟨.hbm, 20, rfl⟩
abbrev main_call1_v0 : Ref sig .tc := ⟨.hbm, 21, rfl⟩
abbrev main_call1_v1 : Ref sig .tc := ⟨.hbm, 22, rfl⟩
abbrev main_v10 : Ref sig .tc := ⟨.hbm, 23, rfl⟩
abbrev main_v11 : Ref sig .tc := ⟨.hbm, 24, rfl⟩
abbrev main_cst_3 : Ref sig .tc := ⟨.hbm, 25, rfl⟩
abbrev main_v12 : Ref sig .tc := ⟨.hbm, 26, rfl⟩
abbrev main_v13 : Ref sig .tc := ⟨.hbm, 27, rfl⟩
abbrev main_cst_4 : Ref sig .tc := ⟨.hbm, 28, rfl⟩
abbrev main_v14 : Ref sig .tc := ⟨.hbm, 29, rfl⟩
abbrev main_v15 : Ref sig .tc := ⟨.hbm, 30, rfl⟩
abbrev main_call2_v0 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_call3_v0 : Ref sig .tc := ⟨.hbm, 35, rfl⟩
abbrev main_call3_cst : Ref sig .tc := ⟨.hbm, 36, rfl⟩
abbrev main_call3_v1 : Ref sig .tc := ⟨.hbm, 37, rfl⟩
abbrev main_call3_v2 : Ref sig .tc := ⟨.hbm, 38, rfl⟩
abbrev main_v19 : Ref sig .tc := ⟨.hbm, 39, rfl⟩
abbrev main_cst_5 : Ref sig .tc := ⟨.hbm, 40, rfl⟩
abbrev main_v20 : Ref sig .tc := ⟨.hbm, 41, rfl⟩
abbrev main_v21 : Ref sig .tc := ⟨.hbm, 42, rfl⟩
abbrev main_cst_6 : Ref sig .tc := ⟨.hbm, 43, rfl⟩
abbrev main_cst_7 : Ref sig .tc := ⟨.hbm, 44, rfl⟩
abbrev main_call4_v0 : Ref sig .tc := ⟨.hbm, 45, rfl⟩
abbrev main_call4_v1 : Ref sig .tc := ⟨.hbm, 46, rfl⟩
abbrev main_v22 : Ref sig .tc := ⟨.hbm, 47, rfl⟩
abbrev main_v23 : Ref sig .tc := ⟨.hbm, 48, rfl⟩
abbrev main_cst_8 : Ref sig .tc := ⟨.hbm, 49, rfl⟩
abbrev main_v24 : Ref sig .tc := ⟨.hbm, 50, rfl⟩
abbrev main_v25 : Ref sig .tc := ⟨.hbm, 51, rfl⟩
abbrev main_cst_9 : Ref sig .tc := ⟨.hbm, 52, rfl⟩
abbrev main_v26 : Ref sig .tc := ⟨.hbm, 53, rfl⟩
abbrev main_v27 : Ref sig .tc := ⟨.hbm, 54, rfl⟩
abbrev main_call5_v0 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_cst_10 : Ref sig .tc := ⟨.hbm, 63, rfl⟩
abbrev main_v35 : Ref sig .tc := ⟨.hbm, 64, rfl⟩
abbrev main_v36 : Ref sig .tc := ⟨.hbm, 65, rfl⟩
abbrev main_cst_11 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_cst_12 : Ref sig .tc := ⟨.hbm, 73, rfl⟩
abbrev main_v43 : Ref sig .tc := ⟨.hbm, 74, rfl⟩
abbrev main_cst_13 : Ref sig .tc := ⟨.hbm, 75, rfl⟩
abbrev main_v44 : Ref sig .tc := ⟨.hbm, 76, rfl⟩
abbrev main_v45 : Ref sig .tc := ⟨.hbm, 77, rfl⟩
abbrev main_cst_14 : Ref sig .tc := ⟨.hbm, 78, rfl⟩
abbrev main_v46 : Ref sig .tc := ⟨.hbm, 79, rfl⟩
abbrev main_v47 : Ref sig .tc := ⟨.hbm, 80, rfl⟩
abbrev main_cst_15 : Ref sig .tc := ⟨.hbm, 81, rfl⟩
abbrev main_cst_16 : Ref sig .tc := ⟨.hbm, 82, rfl⟩
abbrev main_call6_v0 : Ref sig .tc := ⟨.hbm, 83, rfl⟩
abbrev main_call6_v1 : Ref sig .tc := ⟨.hbm, 84, rfl⟩
abbrev main_v48 : Ref sig .tc := ⟨.hbm, 85, rfl⟩
abbrev main_v49 : Ref sig .tc := ⟨.hbm, 86, rfl⟩
abbrev main_cst_17 : Ref sig .tc := ⟨.hbm, 87, rfl⟩
abbrev main_v50 : Ref sig .tc := ⟨.hbm, 88, rfl⟩
abbrev main_v51 : Ref sig .tc := ⟨.hbm, 89, rfl⟩
abbrev main_cst_18 : Ref sig .tc := ⟨.hbm, 90, rfl⟩
abbrev main_v52 : Ref sig .tc := ⟨.hbm, 91, rfl⟩
abbrev main_v53 : Ref sig .tc := ⟨.hbm, 92, rfl⟩
abbrev main_call7_v0 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩

abbrev nD : Nat := 1
abbrev τ : Topo := Topo.v7x

variable {F : FTy → Type} [FloatOps F]

class Facts₀ : Prop where
  bcast_S_S4x100000x32 : S_.BroadcastsInDim S4x100000x32 (![] : Fin 0 → Fin S4x100000x32.rank)
  bcast_S4x100000x32_S4x100000x32x1_0_1_2 : S4x100000x32.BroadcastsInDim S4x100000x32x1 (![0, 1, 2] : Fin 3 → Fin S4x100000x32x1.rank)
  reducesTo_S4x100000x3_S4x100000_d2 : S4x100000x3.ReducesTo [2] S4x100000
  h_S_ : 0 < S_.numel
  bcast_S4x100000_S4x100000x1_0_1 : S4x100000.BroadcastsInDim S4x100000x1 (![0, 1] : Fin 2 → Fin S4x100000x1.rank)
  bcast_S_S4x100000x1 : S_.BroadcastsInDim S4x100000x1 (![] : Fin 0 → Fin S4x100000x1.rank)
  bcast_S4x100000x1_S4x100000x3_0_1_2 : S4x100000x1.BroadcastsInDim S4x100000x3 (![0, 1, 2] : Fin 3 → Fin S4x100000x3.rank)
  reducesTo_S4x100000x32x3_S4x100000x32_d3 : S4x100000x32x3.ReducesTo [3] S4x100000x32
  bcast_S_S4x100000x32x1 : S_.BroadcastsInDim S4x100000x32x1 (![] : Fin 0 → Fin S4x100000x32x1.rank)
  bcast_S4x100000x32x1_S4x100000x32x3_0_1_2_3 : S4x100000x32x1.BroadcastsInDim S4x100000x32x3 (![0, 1, 2, 3] : Fin 4 → Fin S4x100000x32x3.rank)
  bcast_S4x100000x3_S4x100000x1x3_0_1_3 : S4x100000x3.BroadcastsInDim S4x100000x1x3 (![0, 1, 3] : Fin 3 → Fin S4x100000x1x3.rank)
  bcast_S4x100000x1x3_S4x100000x32x3_0_1_2_3 : S4x100000x1x3.BroadcastsInDim S4x100000x32x3 (![0, 1, 2, 3] : Fin 4 → Fin S4x100000x32x3.rank)
  reducesTo_S4x100000x32x3_S4x100000x3_d2 : S4x100000x32x3.ReducesTo [2] S4x100000x3
  reducesTo_S4x100000x32_S4x100000_d2 : S4x100000x32.ReducesTo [2] S4x100000
  gather_S4x100000x3_S4x100000x32x1_S4x100000x32x3_3_1_0_0_1_3_113_wf : GatherDims.WF S4x100000x3 S4x100000x32x1 S4x100000x32x3 [3] [1] [0] [1] [0] 3 ![1, 1, 3]

variable [Facts₀]

def gather_S4x100000x3_S4x100000x32x1_S4x100000x32x3_3_1_0_0_1_3_113 : GatherDims S4x100000x3 S4x100000x32x1 S4x100000x32x3 where
  offsetDims := [3]
  collapsedSliceDims := [1]
  operandBatchingDims := [0]
  startIndicesBatchingDims := [0]
  startIndexMap := [1]
  indexVectorDim := 3
  sliceSizes := ![1, 1, 3]
  wf := gather_S4x100000x3_S4x100000x32x1_S4x100000x32x3_3_1_0_0_1_3_113_wf

class Facts : Prop extends Facts₀ where

variable [Facts]
-- ==== Proof.SmoothSpec.lean ====
/-
  Smoothing a field of normals by its neighbours: the result as ONE function of two arrays.

  `nrm` holds a normal per (batch b, point p): three components.  `nbr` holds, per (b, p), the normals of the
  point's 32 neighbours (whatever rule chose them): `nbr (b, p, k, d)` is component `d` of neighbour `k`.
  Each point is treated by itself, from its own normal `n : Fin 3 → EReal` and its neighbours' normals
  `g : Fin 32 → Fin 3 → EReal`.  With `‖v‖ = √(v₀² + v₁² + v₂²)` and a guard that keeps a denominator away from
  zero (`guard x = ±tiny` when `|x| < tiny`, the sign that of `x` with zero counted positive; else `x`):

      unit3 v d      = v d / guard ‖v‖                                        a unit vector's component
      weight n v     = exp (−(Σ_d (unit3 v d − unit3 n d)²) · sharp)          a neighbour's weight
      smoothRow n g d = (Σ_k g k d · weight n (g k)) / guard (Σ_k weight n (g k))   the weighted average

  All of it on the extended reals, every operation the exact one; `tiny` and `sharp` are the two binary
  constants the programs share (the f32 nearest 1e-17 and the f32 nearest 16/9), never evaluated here.
  No law beyond the commutative monoid of + is needed to meet either program, so no input is assumed finite.
-/
import Idealize.ShloMosaic.PureOps.Ideal
import Idealize.ShloMosaic.PureOps.Ideal.Laws
import Idealize.ShloMosaic.Lib.ValueIdx

noncomputable section

open scoped BigOperators

namespace Cert.Smooth

open Idealize.ShloMosaic Idealize.ShloMosaic.ValueIdx

/-- [batch, point, component]. -/
abbrev SPts : Shape := ⟨3, ![4, 100000, 3]⟩
/-- [batch, point, neighbour, component]. -/
abbrev SNbr : Shape := ⟨4, ![4, 100000, 32, 3]⟩

/-- The threshold below which a denominator is replaced. -/
abbrev tiny : EReal := Ideal.ofBits .f32 0x233877AA#32
/-- The weight's sharpness, the reciprocal of a squared width. -/
abbrev sharp : EReal := Ideal.ofBits .f32 0x3FE38E39#32

/-- The sign of a denominator, zero counted positive: `1` where `0 ≤ x`, else `-1`. -/
def sgn (x : EReal) : EReal :=
  Scalar.select (Ideal.cmp .oge x (Ideal.ofBits .f32 0x00000000#32)) (Ideal.ofBits .f32 0x3F800000#32) (Ideal.ofBits .f32 0xBF800000#32)

/-- The guarded denominator: `±tiny` where `|x| < tiny`, else `x`. -/
def guard (x : EReal) : EReal :=
  Scalar.select (Ideal.cmp .olt (max x (-x)) tiny) (sgn x * tiny) x

/-- The length of a vector of three components. -/
def len3 (v : Fin 3 → EReal) : EReal := Ideal.sqrt (∑ d : Fin 3, v d * v d)

/-- Component `d` of the vector scaled to unit length (by the guarded length). -/
def unit3 (v : Fin 3 → EReal) (d : Fin 3) : EReal := Ideal.div (v d) (guard (len3 v))

/-- A neighbour's weight: the Gaussian of the distance between its unit normal and the point's. -/
def weight (n v : Fin 3 → EReal) : EReal :=
  Ideal.exp (-(∑ d : Fin 3, (unit3 v d - unit3 n d) * (unit3 v d - unit3 n d)) * sharp)

/-- Component `d` of one point's smoothed normal: its neighbours' raw normals averaged by their weights. -/
def smoothRow (n : Fin 3 → EReal) (g : Fin 32 → Fin 3 → EReal) (d : Fin 3) : EReal :=
  Ideal.div (∑ k : Fin 32, g k d * weight n (g k)) (guard (∑ k : Fin 32, weight n (g k)))

/-- The smoothed normal at (b, p), component `d`, from the two arrays. -/
def smoothAt (nrm : SPts.Idx → EReal) (nbr : SNbr.Idx → EReal) (b : Fin 4) (p : Fin 100000) (d : Fin 3) : EReal :=
  smoothRow (fun e => nrm (ix3 b p e)) (fun k e => nbr (ix4 b p k e)) d

/-- The smoothed field, index by index. -/
def smooth (nrm : SPts.Idx → EReal) (nbr : SNbr.Idx → EReal) : SPts.Idx → EReal :=
  fun i => smoothAt nrm nbr (i 0) (i 1) (i 2)

theorem smooth_apply (nrm : SPts.Idx → EReal) (nbr : SNbr.Idx → EReal) (b : Fin 4) (p : Fin 100000) (d : Fin 3) :
    smooth nrm nbr (ix3 b p d) = smoothAt nrm nbr b p d := rfl

/-- Where the kernel's packed neighbour row keeps component `e` of neighbour `k`: the three components lie one after
    another, 32 lanes each. -/
abbrev lane (e : Fin 3) (k : Fin 32) : Fin 96 := ⟨32 * e.val + k.val, by omega⟩

/-- Three terms added left to right are the sum over the three components. -/
theorem sum3 (f : Fin 3 → EReal) : f 0 + f 1 + f 2 = ∑ d : Fin 3, f d := (Fin.sum_univ_three f).symm

/-- The zero word is the extended real 0, so a sum started from it is the sum. -/
theorem zero_word_add (x : EReal) : Ideal.ofBits .f32 0x00000000#32 + x = x := by
  rw [Ideal.ofBits_zero_f32, zero_add]

/-- Subtracting from the zero word negates. -/
theorem zero_word_sub (x : EReal) : Ideal.ofBits .f32 0x00000000#32 - x = -x := by
  rw [Ideal.ofBits_zero_f32, zero_sub]

end Cert.Smooth

end
-- ==== Proof.SmoothRef.lean ====
/-
  The reference program is the specification.

  The reference takes the normals `x0` (a normal per batch b and point p, three components) and the neighbour
  indices `x1`; its first act is to gather the neighbours' normals into an array `nbr`, and from there on it
  never looks at `x1` again.  That gathered array is kept as it stands: nothing below depends on how it was
  chosen.  Every later stage is read at explicit coordinates (b, p, d) or (b, p, k, d), innermost first:

      the length of a normal        √(0 + Σ_e v_e²)               = len3 v
      its guard                     ±tiny where |x| < tiny, else x = guard x     (at every index, no coordinates needed)
      the unit normal               v_d / guard (len3 v)            = unit3 v d
      the same three for each neighbour k
      the difference, squared and summed over the components from 0, negated, times sharp, exponentiated
                                                                    = weight n (g k)
      the numerator                 0 + Σ_k g_k,d · weight n (g k)
      the denominator               guard (0 + Σ_k weight n (g k))
      their quotient                                                 = smoothRow n g d

  A sum started from the zero word is the sum (0 + x = x on the extended reals); a stage that broadcasts along an
  axis reads its operand at the coordinate 0 of that axis, or drops the axis; nothing else is used.
-/
import proofs.«428989_j52682068853044_3_alg».proof.Proof.Gen.ReferenceIdeal.Read
import proofs.«428989_j52682068853044_3_alg».proof.Proof.SmoothSpec
import Idealize.ShloMosaic.Lib.ValueIdx
import Idealize.ShloMosaic.PureOps.Ideal.Laws

noncomputable section
open scoped BigOperators
open Idealize.ShloMosaic Idealize.ShloMosaic.ValueIdx

namespace Cert.Smooth.Ref
open Cert.ReferenceIdeal Cert.ReferenceIdeal.Read

attribute [local irreducible] Cert.ReferenceIdeal.Read.val_main_v6

section
variable (x0 : (⟨S4x100000x3, .f32⟩ : BufTy).Contents (Elt Ideal))
  (x1 : (⟨S4x100000x32, .i32⟩ : BufTy).Contents (Elt Ideal))

/-! ### Where each stage reads its operand, at explicit coordinates -/

theorem idx_len (b : Fin 4) (p : Fin 100000) (e : Fin 3) :
    idx_main_call0_v1 (idx_main_call0_v2 (ix3 b p (0 : Fin 1))) e = ix3 b p e := by
  funext a; match a with | ⟨0, _⟩ => rfl | ⟨1, _⟩ => rfl | ⟨2, _⟩ => rfl

theorem idx_keep3 (b : Fin 4) (p : Fin 100000) (d : Fin 3) :
    idx_main_v17 (ix3 b p d) = ix3 b p (0 : Fin 1) := by
  funext a; match a with | ⟨0, _⟩ => rfl | ⟨1, _⟩ => rfl | ⟨2, _⟩ => rfl

/-- The length of the point's normal. -/
theorem ref_len (b : Fin 4) (p : Fin 100000) :
    val_main_v7 (F := Ideal) x0 (ix3 b p (0 : Fin 1)) = len3 (fun e => x0 (ix3 b p e)) := by
  rw [val_main_v7_apply, val_main_call0_v2_apply, val_main_call0_v1_apply]
  unfold len3
  refine congrArg Ideal.sqrt ?_
  refine (zero_word_add _).trans ?_
  refine Finset.sum_congr rfl fun e _ => ?_
  rw [idx_len]
  rfl

/-- The guard stage is the guard of the length stage, at every index. -/
theorem ref_guard (i : S4x100000x1.Idx) :
    val_main_v16 (F := Ideal) x0 i = guard (val_main_v7 (F := Ideal) x0 i) := by
  rw [val_main_v16_apply, val_main_v13_apply, val_main_v11_apply, val_main_v12_apply, val_main_cst_3_apply,
    val_main_call2_v0_apply, val_main_v15_apply, val_main_v10_apply, val_main_v9_apply, val_main_v8_apply,
    val_main_cst_apply, val_main_call1_v0_apply, val_main_cst_1_apply, val_main_call1_v1_apply,
    val_main_cst_2_apply, val_main_v14_apply, val_main_cst_4_apply]
  rfl

theorem ref_guard_len (b : Fin 4) (p : Fin 100000) :
    val_main_v16 (F := Ideal) x0 (ix3 b p (0 : Fin 1)) = guard (len3 (fun e => x0 (ix3 b p e))) :=
  (ref_guard x0 _).trans (congrArg guard (ref_len x0 b p))

/-- The point's unit normal. -/
theorem ref_unit (b : Fin 4) (p : Fin 100000) (d : Fin 3) :
    val_main_v18 (F := Ideal) x0 (ix3 b p d) = unit3 (fun e => x0 (ix3 b p e)) d := by
  rw [val_main_v18_apply, val_main_v17_apply, idx_keep3, ref_guard_len]
  rfl

/-! ### The neighbours -/

theorem idx_nlen (b : Fin 4) (p : Fin 100000) (k : Fin 32) (e : Fin 3) :
    idx_main_call3_v1 (idx_main_call3_v2 (ix4 b p k (0 : Fin 1))) e = ix4 b p k e := by
  funext a; match a with | ⟨0, _⟩ => rfl | ⟨1, _⟩ => rfl | ⟨2, _⟩ => rfl | ⟨3, _⟩ => rfl

theorem idx_keep4 (b : Fin 4) (p : Fin 100000) (k : Fin 32) (d : Fin 3) :
    idx_main_v29 (ix4 b p k d) = ix4 b p k (0 : Fin 1) := by
  funext a; match a with | ⟨0, _⟩ => rfl | ⟨1, _⟩ => rfl | ⟨2, _⟩ => rfl | ⟨3, _⟩ => rfl

theorem idx_over_nbrs (b : Fin 4) (p : Fin 100000) (k : Fin 32) (d : Fin 3) :
    idx_main_v31 (idx_main_v32 (ix4 b p k d)) = ix3 b p d := by
  funext a; match a with | ⟨0, _⟩ => rfl | ⟨1, _⟩ => rfl | ⟨2, _⟩ => rfl

theorem idx_sq (b : Fin 4) (p : Fin 100000) (k : Fin 32) (e : Fin 3) :
    idx_main_v35 (ix3 b p k) e = ix4 b p k e := by
  funext a; match a with | ⟨0, _⟩ => rfl | ⟨1, _⟩ => rfl | ⟨2, _⟩ => rfl | ⟨3, _⟩ => rfl

theorem idx_num (b : Fin 4) (p : Fin 100000) (d : Fin 3) (k : Fin 32) :
    idx_main_v43 (ix3 b p d) k = ix4 b p k d := by
  funext a; match a with | ⟨0, _⟩ => rfl | ⟨1, _⟩ => rfl | ⟨2, _⟩ => rfl | ⟨3, _⟩ => rfl

theorem idx_wt_over (b : Fin 4) (p : Fin 100000) (k : Fin 32) (d : Fin 3) :
    idx_main_v40 (idx_main_v41 (ix4 b p k d)) = ix3 b p k := by
  funext a; match a with | ⟨0, _⟩ => rfl | ⟨1, _⟩ => rfl | ⟨2, _⟩ => rfl

theorem idx_den (b : Fin 4) (p : Fin 100000) (k : Fin 32) :
    idx_main_v44 (idx_main_v45 (ix3 b p (0 : Fin 1))) k = ix3 b p k := by
  funext a; match a with | ⟨0, _⟩ => rfl | ⟨1, _⟩ => rfl | ⟨2, _⟩ => rfl

theorem idx_keep3' (b : Fin 4) (p : Fin 100000) (d : Fin 3) :
    idx_main_v55 (ix3 b p d) = ix3 b p (0 : Fin 1) := by
  funext a; match a with | ⟨0, _⟩ => rfl | ⟨1, _⟩ => rfl | ⟨2, _⟩ => rfl

/-- The length of a gathered neighbour's normal. -/
theorem ref_nlen (b : Fin 4) (p : Fin 100000) (k : Fin 32) :
    val_main_v19 (F := Ideal) x0 x1 (ix4 b p k (0 : Fin 1))
      = len3 (fun e => val_main_v6 (F := Ideal) x0 x1 (ix4 b p k e)) := by
  rw [val_main_v19_apply, val_main_call3_v2_apply, val_main_call3_v1_apply]
  unfold len3
  refine congrArg Ideal.sqrt ?_
  refine (zero_word_add _).trans ?_
  refine Finset.sum_congr rfl fun e _ => ?_
  rw [idx_nlen]
  rfl

/-- The neighbours' guard stage is the guard of their length stage, at every index. -/
theorem ref_nguard (i : S4x100000x32x1.Idx) :
    val_main_v28 (F := Ideal) x0 x1 i = guard (val_main_v19 (F := Ideal) x0 x1 i) := by
  rw [val_main_v28_apply, val_main_v25_apply, val_main_v23_apply, val_main_v24_apply, val_main_cst_8_apply,
    val_main_call5_v0_apply, val_main_v27_apply, val_main_v22_apply, val_main_v21_apply, val_main_v20_apply,
    val_main_cst_5_apply, val_main_call4_v0_apply, val_main_cst_6_apply, val_main_call4_v1_apply,
    val_main_cst_7_apply, val_main_v26_apply, val_main_cst_9_apply]
  rfl

/-- A neighbour's unit normal. -/
theorem ref_nunit (b : Fin 4) (p : Fin 100000) (k : Fin 32) (d : Fin 3) :
    val_main_v30 (F := Ideal) x0 x1 (ix4 b p k d)
      = unit3 (fun e => val_main_v6 (F := Ideal) x0 x1 (ix4 b p k e)) d := by
  rw [val_main_v30_apply, val_main_v29_apply, idx_keep4, ref_nguard, ref_nlen]
  rfl

/-- The difference of the two unit normals, component by component. -/
theorem ref_diff (b : Fin 4) (p : Fin 100000) (k : Fin 32) (d : Fin 3) :
    val_main_v33 (F := Ideal) x0 x1 (ix4 b p k d)
      = unit3 (fun e => val_main_v6 (F := Ideal) x0 x1 (ix4 b p k e)) d - unit3 (fun e => x0 (ix3 b p e)) d := by
  rw [val_main_v33_apply, val_main_v32_apply, val_main_v31_apply, idx_over_nbrs, ref_nunit, ref_unit]
  rfl

/-- The squared distance between a neighbour's unit normal and the point's. -/
theorem ref_sqdist (b : Fin 4) (p : Fin 100000) (k : Fin 32) :
    val_main_v35 (F := Ideal) x0 x1 (ix3 b p k)
      = ∑ d : Fin 3, (unit3 (fun e => val_main_v6 (F := Ideal) x0 x1 (ix4 b p k e)) d - unit3 (fun e => x0 (ix3 b p e)) d)
          * (unit3 (fun e => val_main_v6 (F := Ideal) x0 x1 (ix4 b p k e)) d - unit3 (fun e => x0 (ix3 b p e)) d) := by
  rw [val_main_v35_apply]
  refine (zero_word_add _).trans ?_
  refine Finset.sum_congr rfl fun e _ => ?_
  rw [idx_sq, val_main_v34_apply, ref_diff]
  rfl

/-- A neighbour's weight. -/
theorem ref_weight (b : Fin 4) (p : Fin 100000) (k : Fin 32) :
    val_main_v39 (F := Ideal) x0 x1 (ix3 b p k)
      = weight (fun e => x0 (ix3 b p e)) (fun e => val_main_v6 (F := Ideal) x0 x1 (ix4 b p k e)) := by
  rw [val_main_v39_apply, val_main_v38_apply, val_main_v37_apply, val_main_cst_11_apply, val_main_v36_apply,
    ref_sqdist]
  rfl

/-- The numerator: the raw neighbour normals summed with their weights. -/
theorem ref_num (b : Fin 4) (p : Fin 100000) (d : Fin 3) :
    val_main_v43 (F := Ideal) x0 x1 (ix3 b p d)
      = ∑ k : Fin 32, val_main_v6 (F := Ideal) x0 x1 (ix4 b p k d)
          * weight (fun e => x0 (ix3 b p e)) (fun e => val_main_v6 (F := Ideal) x0 x1 (ix4 b p k e)) := by
  rw [val_main_v43_apply]
  refine (zero_word_add _).trans ?_
  refine Finset.sum_congr rfl fun k _ => ?_
  rw [idx_num, val_main_v42_apply, val_main_v41_apply, val_main_v40_apply, idx_wt_over, ref_weight]
  rfl

/-- The denominator before its guard: the weights summed. -/
theorem ref_den (b : Fin 4) (p : Fin 100000) :
    val_main_v45 (F := Ideal) x0 x1 (ix3 b p (0 : Fin 1))
      = ∑ k : Fin 32, weight (fun e => x0 (ix3 b p e)) (fun e => val_main_v6 (F := Ideal) x0 x1 (ix4 b p k e)) := by
  rw [val_main_v45_apply, val_main_v44_apply]
  refine (zero_word_add _).trans ?_
  refine Finset.sum_congr rfl fun k _ => ?_
  rw [idx_den, ref_weight]

/-- The denominator's guard stage is the guard of the summed weights, at every index. -/
theorem ref_dguard (i : S4x100000x1.Idx) :
    val_main_v54 (F := Ideal) x0 x1 i = guard (val_main_v45 (F := Ideal) x0 x1 i) := by
  rw [val_main_v54_apply, val_main_v51_apply, val_main_v49_apply, val_main_v50_apply, val_main_cst_17_apply,
    val_main_call7_v0_apply, val_main_v53_apply, val_main_v48_apply, val_main_v47_apply, val_main_v46_apply,
    val_main_cst_14_apply, val_main_call6_v0_apply, val_main_cst_15_apply, val_main_call6_v1_apply,
    val_main_cst_16_apply, val_main_v52_apply, val_main_cst_18_apply]
  rfl

/-- The reference's result at (b, p), component d, is the specification's. -/
theorem ref_at (b : Fin 4) (p : Fin 100000) (d : Fin 3) :
    val_main_v56 (F := Ideal) x0 x1 (ix3 b p d)
      = smoothAt x0 (val_main_v6 (F := Ideal) x0 x1) b p d := by
  rw [val_main_v56_apply, val_main_v55_apply, idx_keep3', ref_dguard, ref_den, ref_num]
  rfl

end

/-- The reference computes the smoothed field of the normals and the gathered neighbour normals. -/
theorem ref_is_smooth (x0 : (⟨S4x100000x3, .f32⟩ : BufTy).Contents (Elt Ideal)) (x1 : (⟨S4x100000x32, .i32⟩ : BufTy).Contents (Elt Ideal)) :
    val_main_v56 (F := Ideal) x0 x1 = Cert.Smooth.smooth x0 (val_main_v6 (F := Ideal) x0 x1) := by
  funext i
  obtain ⟨b, p, d, rfl⟩ : ∃ (b : Fin 4) (p : Fin 100000) (d : Fin 3), i = ix3 b p d := ⟨i 0, i 1, i 2, eq_ix3 i⟩
  rw [smooth_apply]
  exact ref_at x0 x1 b p d

end Cert.Smooth.Ref
end
-- ==== Proof.SmoothBody.lean ====
/-
  One grid point's kernel body is the specification on its block.

  The body reads a block of 1000 normals, `x0 (0, r, e)`, and the block of their packed neighbours, `x1 (0, r, l)`, where
  component `e` of neighbour `k` lies at lane `l = 32·e + k`; it stores the three columns of its result one after
  another. Row by row it computes what the specification `smoothRow` says of the row's normal `n e = x0 (0, r, e)` and
  its neighbours `g k e = x1 (0, r, 32·e + k)`:

    • the row's normal is scaled to unit length by its guarded length (a lane sum of three squares, a square root, the
      guard written with two selects), and its three components are cut out as one-column vectors;
    • the three lane ranges of the packed block are the neighbours' components; the squares added left to right are the
      sum over the three components, so the square root is the neighbour's length;
    • each neighbour is scaled by its guarded length, the point's unit components are broadcast over the 32 lanes, the
      three squared differences are added left to right, negated by subtracting from the zero word, multiplied by the
      sharpness and exponentiated: the neighbour's weight;
    • the lane sums of component × weight and of the weights are sums over the 32 neighbours, kept as one-column vectors;
      the sum of the weights is guarded as the lengths were, and each numerator divided by it;
    • the three quotients are stored through the three column rectangles of the block, which are disjoint, so column `d`
      of the block is the quotient of numerator `d`.

  Every step is an equation between extended reals at one index; no law of arithmetic beyond the reading of three terms
  added left to right as a sum over `Fin 3` is used.
-/
import proofs.«428989_j52682068853044_3_alg».proof.Proof.Gen.KernelIdeal.Frame
import proofs.«428989_j52682068853044_3_alg».proof.Proof.SmoothSpec
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.ValueIdx

namespace Cert.Smooth.Body

open Cert.KernelIdeal Cert.KernelIdeal.Gen

/-! ## Columns and lane sums read at an index -/

variable {α : Type}

/-- A vector cast to a one-column matrix reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A one-column matrix broadcast over b columns reads, at (p, c), the column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum over the 3 lanes of a row. -/
theorem rowsum3 (src : FVec Ideal S1000x3 .f32) (r : Fin 1000) :
    multiReduction .add [1] S1000 src 0x00000000#32 reduces_S1000x3_S1000 (.inl rfl) rfl (ix1 r) = ∑ e : Fin 3, src (ix2 r e) :=
  (Ideal.multiReduction_add_single src 0x00000000#32 reduces_S1000x3_S1000 (.inl rfl) rfl (ix1 r)).trans
    (Finset.sum_congr rfl fun e _ => congrArg src (funext fun a => match a with | ⟨0, _⟩ => rfl | ⟨1, _⟩ => rfl))

/-- The sum over the 32 lanes of a row. -/
theorem rowsum32 (src : FVec Ideal S1000x32 .f32) (r : Fin 1000) :
    multiReduction .add [1] S1000 src 0x00000000#32 reduces_S1000x32_S1000 (.inl rfl) rfl (ix1 r) = ∑ k : Fin 32, src (ix2 r k) :=
  (Ideal.multiReduction_add_single src 0x00000000#32 reduces_S1000x32_S1000 (.inl rfl) rfl (ix1 r)).trans
    (Finset.sum_congr rfl fun e _ => congrArg src (funext fun a => match a with | ⟨0, _⟩ => rfl | ⟨1, _⟩ => rfl))

/-- The guard written over a vector (sign by one select, replacement by another) reads, at an index, the guard of the
    element. -/
theorem guardV_apply {s : Shape} (x : FVec Ideal s .f32) (i : s.Idx) :
    select (cmpf .olt (absf x) (broadcast s (Scalar.ofBits (F := Ideal) .f32 0x233877AA#32)))
      (mulf (select (cmpf .oge x (broadcast s (Scalar.ofBits (F := Ideal) .f32 0x00000000#32)))
          (broadcast s (Scalar.ofBits (F := Ideal) .f32 0x3F800000#32)) (broadcast s (Scalar.ofBits (F := Ideal) .f32 0xBF800000#32)))
        (broadcast s (Scalar.ofBits (F := Ideal) .f32 0x233877AA#32))) x i = Cert.Smooth.guard (x i) := rfl

/-- An exponential at an index is the exponential of the element, -/
theorem exp_apply' {s : Shape} (v : FVec Ideal s .f32) (i : s.Idx) : exp v i = Ideal.exp (v i) := rfl
/-- and an absolute value the larger of the element and its negation. -/
theorem absf_apply' {s : Shape} (v : FVec Ideal s .f32) (i : s.Idx) : absf v i = max (v i) (-(v i)) := rfl

/-! ## The first half: the point's unit normal, the neighbours' components and lengths -/

open Cert.Smooth in
/-- The point's normal scaled to unit length, read at (r, d). -/
theorem pay5_apply (v0 : Vec Ideal S1x1000x3 .f32) (r : Fin 1000) (d : Fin 3) :
    k0_pay5 v0 (ix2 r d) = unit3 (fun e => v0 (ix3 0 r e)) d := by
  have h1 : ∀ e : Fin 3, shapeCast S1000x3 v0 shapeCasts_S1x1000x3_S1000x3 (ix2 r e) = v0 (ix3 0 r e) :=
    fun e => shapeCast_1ab_ab_apply v0 _ r e
  unfold k0_pay5
  dsimp only
  refine (divf_apply _ _ _).trans ?_
  unfold unit3
  refine congrArg₂ Ideal.div (h1 d) ?_
  refine (broadcastTo_a1_ab_apply _ _ r d).trans ?_
  refine (guardV_apply _ _).trans ?_
  refine congrArg guard ?_
  unfold len3
  refine congrArg Ideal.sqrt ?_
  refine (shapeCast_a_a1_apply _ _ r 0).trans ?_
  refine (rowsum3 _ r).trans ?_
  refine Finset.sum_congr rfl fun e _ => ?_
  exact congrArg₂ (· * ·) (h1 e) (h1 e)

open Cert.Smooth in
/-- Its first component, as a one-column vector. -/
theorem pay6_apply (v0 : Vec Ideal S1x1000x3 .f32) (r : Fin 1000) :
    k0_pay6 v0 (ix2 r 0) = unit3 (fun e => v0 (ix3 0 r e)) 0 :=
  (slice2_axis1_apply 0 (k0_pay5 v0) slices_S1000x3_o0_0_S1000x1 r 0 0 rfl).trans (pay5_apply v0 r 0)

open Cert.Smooth in
/-- Its second component. -/
theorem pay7_apply (v0 : Vec Ideal S1x1000x3 .f32) (r : Fin 1000) :
    k0_pay7 v0 (ix2 r 0) = unit3 (fun e => v0 (ix3 0 r e)) 1 :=
  (slice2_axis1_apply 1 (k0_pay5 v0) slices_S1000x3_o0_1_S1000x1 r 0 1 rfl).trans (pay5_apply v0 r 1)

open Cert.Smooth in
/-- Its third component. -/
theorem pay8_apply (v0 : Vec Ideal S1x1000x3 .f32) (r : Fin 1000) :
    k0_pay8 v0 (ix2 r 0) = unit3 (fun e => v0 (ix3 0 r e)) 2 :=
  (slice2_axis1_apply 2 (k0_pay5 v0) slices_S1000x3_o0_2_S1000x1 r 0 2 rfl).trans (pay5_apply v0 r 2)

/-- A loaded lane range with its leading unit axis dropped: the neighbours' first components, -/
theorem pay9_apply (v : Vec Ideal S1x1000x32 .f32) (r : Fin 1000) (k : Fin 32) :
    k0_pay9 v (ix2 r k) = v (ix3 0 r k) := shapeCast_1ab_ab_apply v _ r k
/-- their second components, -/
theorem pay10_apply (v : Vec Ideal S1x1000x32 .f32) (r : Fin 1000) (k : Fin 32) :
    k0_pay10 v (ix2 r k) = v (ix3 0 r k) := shapeCast_1ab_ab_apply v _ r k
/-- and their third. -/
theorem pay11_apply (v : Vec Ideal S1x1000x32 .f32) (r : Fin 1000) (k : Fin 32) :
    k0_pay11 v (ix2 r k) = v (ix3 0 r k) := shapeCast_1ab_ab_apply v _ r k

open Cert.Smooth in
/-- The neighbour's length, read at (r, k). -/
theorem pay12_apply (v22 v24 v26 : Vec Ideal S1x1000x32 .f32) (r : Fin 1000) (k : Fin 32) (g : Fin 3 → EReal)
    (h0 : v22 (ix3 0 r k) = g 0) (h1 : v24 (ix3 0 r k) = g 1) (h2 : v26 (ix3 0 r k) = g 2) :
    k0_pay12 v22 v24 v26 (ix2 r k) = len3 g := by
  have e0 := (pay9_apply v22 r k).trans h0
  have e1 := (pay10_apply v24 r k).trans h1
  have e2 := (pay11_apply v26 r k).trans h2
  unfold k0_pay12 len3
  show Ideal.sqrt ((k0_pay9 v22 (ix2 r k) * k0_pay9 v22 (ix2 r k) + k0_pay10 v24 (ix2 r k) * k0_pay10 v24 (ix2 r k))
      + k0_pay11 v26 (ix2 r k) * k0_pay11 v26 (ix2 r k)) = _
  rw [e0, e1, e2]
  exact congrArg Ideal.sqrt (sum3 fun d => g d * g d)

open Cert.Smooth in
/-- Whether the neighbour's length is at least zero, read at (r, k). -/
theorem pay13_apply (v22 v24 v26 : Vec Ideal S1x1000x32 .f32) (r : Fin 1000) (k : Fin 32) (g : Fin 3 → EReal)
    (h0 : v22 (ix3 0 r k) = g 0) (h1 : v24 (ix3 0 r k) = g 1) (h2 : v26 (ix3 0 r k) = g 2) :
    k0_pay13 v22 v24 v26 (ix2 r k) = Ideal.cmp .oge (len3 g) (Ideal.ofBits .f32 0x00000000#32) := by
  unfold k0_pay13
  show Ideal.cmp .oge (k0_pay12 v22 v24 v26 (ix2 r k)) (Ideal.ofBits .f32 0x00000000#32) = _
  rw [pay12_apply v22 v24 v26 r k g h0 h1 h2]

/-- The all-ones vector. -/
theorem pay14_apply (i : S1000x32.Idx) : k0_pay14 (F := Ideal) i = Ideal.ofBits .f32 0x3F800000#32 := rfl

/-! ## A neighbour's weight -/
open Cert.Smooth in
/-- The neighbour's weight, read at (r, k). -/
theorem pay15_apply (v19 v20 v21 : FVec Ideal S1000x1 .f32) (v23 v25 v27 v33 : FVec Ideal S1000x32 .f32) (v35 : IVec S1000x32 1)
    (cst_16 : Ideal .f32) (v36 : FVec Ideal S1000x32 .f32) (r : Fin 1000) (k : Fin 32) (n g : Fin 3 → EReal)
    (h19 : v19 (ix2 r 0) = unit3 n 0) (h20 : v20 (ix2 r 0) = unit3 n 1) (h21 : v21 (ix2 r 0) = unit3 n 2)
    (h23 : v23 (ix2 r k) = g 0) (h25 : v25 (ix2 r k) = g 1) (h27 : v27 (ix2 r k) = g 2)
    (h33 : v33 (ix2 r k) = len3 g)
    (h35 : v35 (ix2 r k) = Ideal.cmp .oge (len3 g) (Ideal.ofBits .f32 0x00000000#32))
    (h16 : cst_16 = Ideal.ofBits .f32 0xBF800000#32) (h36 : v36 (ix2 r k) = Ideal.ofBits .f32 0x3F800000#32) :
    k0_pay15 v19 v20 v21 v23 v25 v27 v33 v35 cst_16 v36 (ix2 r k) = weight n g := by
  unfold k0_pay15
  simp only [exp_apply', absf_apply', mulf_apply, subf_apply, addf_apply, divf_apply, select_apply, cmpf_apply,
    broadcast_apply, broadcastTo_a1_ab_apply, h19, h20, h21, h23, h25, h27, h33, h35, h16, h36]
  unfold weight
  refine congrArg Ideal.exp ?_
  refine congrArg (· * sharp) ?_
  refine (zero_word_sub _).trans ?_
  refine congrArg Neg.neg ?_
  exact sum3 (fun d => (unit3 g d - unit3 n d) * (unit3 g d - unit3 n d))

/-! ## The second half: the lane sums, the guarded denominator, the stored columns -/

/-- A stored column, re-cast to the block's rank, reads at row r the quotient at row r. -/
theorem pay2_apply (v66 v74 v79 : FVec Ideal S1000x1 .f32) (v82 : IVec S1000x1 1) (v83 : FVec Ideal S1000x1 .f32) (r : Fin 1000) :
    k0_pay2 v66 v74 v79 v82 v83 (ix3 0 r 0) = Ideal.div (v66 (ix2 r 0)) (k0_pay1 v74 v79 v82 v83 (ix2 r 0)) := by
  unfold k0_pay2
  exact shapeCast_ab_1ab_apply _ _ (0 : Fin 1) r (0 : Fin 1)
/-- The same for the second stored column, -/
theorem pay3_apply (v69 v74 v79 : FVec Ideal S1000x1 .f32) (v82 : IVec S1000x1 1) (v83 : FVec Ideal S1000x1 .f32) (r : Fin 1000) :
    k0_pay3 v69 v74 v79 v82 v83 (ix3 0 r 0) = Ideal.div (v69 (ix2 r 0)) (k0_pay1 v74 v79 v82 v83 (ix2 r 0)) := by
  unfold k0_pay3
  exact shapeCast_ab_1ab_apply _ _ (0 : Fin 1) r (0 : Fin 1)
/-- and for the third. -/
theorem pay4_apply (v72 v74 v79 : FVec Ideal S1000x1 .f32) (v82 : IVec S1000x1 1) (v83 : FVec Ideal S1000x1 .f32) (r : Fin 1000) :
    k0_pay4 v72 v74 v79 v82 v83 (ix3 0 r 0) = Ideal.div (v72 (ix2 r 0)) (k0_pay1 v74 v79 v82 v83 (ix2 r 0)) := by
  unfold k0_pay4
  exact shapeCast_ab_1ab_apply _ _ (0 : Fin 1) r (0 : Fin 1)

open Cert.Smooth in
/-- What the second half of the body reads at row r, in the specification's terms: the point's unit normal in the three
    one-column vectors, neighbour k's components, length and its comparison with zero at lane k, and the two splat words. -/
structure RowReads (v19 v20 v21 : FVec Ideal S1000x1 .f32) (v23 v25 v27 v33 : FVec Ideal S1000x32 .f32) (v35 : IVec S1000x32 1)
    (cst_16 : Ideal .f32) (v36 : FVec Ideal S1000x32 .f32) (r : Fin 1000) (n : Fin 3 → EReal) (g : Fin 32 → Fin 3 → EReal) : Prop where
  h19 : v19 (ix2 r 0) = unit3 n 0
  h20 : v20 (ix2 r 0) = unit3 n 1
  h21 : v21 (ix2 r 0) = unit3 n 2
  h23 : ∀ k : Fin 32, v23 (ix2 r k) = g k 0
  h25 : ∀ k : Fin 32, v25 (ix2 r k) = g k 1
  h27 : ∀ k : Fin 32, v27 (ix2 r k) = g k 2
  h33 : ∀ k : Fin 32, v33 (ix2 r k) = len3 (g k)
  h35 : ∀ k : Fin 32, v35 (ix2 r k) = Ideal.cmp .oge (len3 (g k)) (Ideal.ofBits .f32 0x00000000#32)
  h16 : cst_16 = Ideal.ofBits .f32 0xBF800000#32
  h36 : ∀ k : Fin 32, v36 (ix2 r k) = Ideal.ofBits .f32 0x3F800000#32

section SecondHalf
open Cert.Smooth
variable {v19 v20 v21 : FVec Ideal S1000x1 .f32} {v23 v25 v27 v33 : FVec Ideal S1000x32 .f32} {v35 : IVec S1000x32 1}
  {cst_16 : Ideal .f32} {v36 : FVec Ideal S1000x32 .f32} {r : Fin 1000} {n : Fin 3 → EReal} {g : Fin 32 → Fin 3 → EReal}

/-- Lane k of the weights is neighbour k's weight. -/
theorem RowReads.lane_weight (H : RowReads v19 v20 v21 v23 v25 v27 v33 v35 cst_16 v36 r n g) (k : Fin 32) :
    k0_pay15 v19 v20 v21 v23 v25 v27 v33 v35 cst_16 v36 (ix2 r k) = Cert.Smooth.weight n (g k) :=
  pay15_apply v19 v20 v21 v23 v25 v27 v33 v35 cst_16 v36 r k n (g k) H.h19 H.h20 H.h21 (H.h23 k) (H.h25 k) (H.h27 k)
    (H.h33 k) (H.h35 k) H.h16 (H.h36 k)

/-- The lane sum of the first components times the weights. -/
theorem RowReads.num0 (H : RowReads v19 v20 v21 v23 v25 v27 v33 v35 cst_16 v36 r n g) :
    k0_pay16 v19 v20 v21 v23 v25 v27 v33 v35 cst_16 v36 (ix2 r 0) = ∑ k : Fin 32, g k 0 * Cert.Smooth.weight n (g k) :=
  ((shapeCast_a_a1_apply _ _ r 0).trans (rowsum32 _ r)).trans
    (Finset.sum_congr rfl fun k _ => congrArg₂ (· * ·) (H.h23 k) (H.lane_weight k))

/-- The lane sum of the second components times the weights. -/
theorem RowReads.num1 (H : RowReads v19 v20 v21 v23 v25 v27 v33 v35 cst_16 v36 r n g) :
    k0_pay17 v19 v20 v21 v23 v25 v27 v33 v35 cst_16 v36 (ix2 r 0) = ∑ k : Fin 32, g k 1 * Cert.Smooth.weight n (g k) :=
  ((shapeCast_a_a1_apply _ _ r 0).trans (rowsum32 _ r)).trans
    (Finset.sum_congr rfl fun k _ => congrArg₂ (· * ·) (H.h25 k) (H.lane_weight k))

/-- The lane sum of the third components times the weights. -/
theorem RowReads.num2 (H : RowReads v19 v20 v21 v23 v25 v27 v33 v35 cst_16 v36 r n g) :
    k0_pay18 v19 v20 v21 v23 v25 v27 v33 v35 cst_16 v36 (ix2 r 0) = ∑ k : Fin 32, g k 2 * Cert.Smooth.weight n (g k) :=
  ((shapeCast_a_a1_apply _ _ r 0).trans (rowsum32 _ r)).trans
    (Finset.sum_congr rfl fun k _ => congrArg₂ (· * ·) (H.h27 k) (H.lane_weight k))

/-- The lane sum of the weights. -/
theorem RowReads.den (H : RowReads v19 v20 v21 v23 v25 v27 v33 v35 cst_16 v36 r n g) :
    k0_pay19 v19 v20 v21 v23 v25 v27 v33 v35 cst_16 v36 (ix2 r 0) = ∑ k : Fin 32, Cert.Smooth.weight n (g k) :=
  ((shapeCast_a_a1_apply _ _ r 0).trans (rowsum32 _ r)).trans (Finset.sum_congr rfl fun k _ => H.lane_weight k)

/-- The guarded denominator over the sum of the weights, its sign and its comparison, is the guard of that sum. -/
theorem pay1_guard (v19 v20 v21 : FVec Ideal S1000x1 .f32) (v23 v25 v27 v33 : FVec Ideal S1000x32 .f32) (v35 : IVec S1000x32 1)
    (cst_16 : Ideal .f32) (v36 : FVec Ideal S1000x32 .f32) (i : S1000x1.Idx) :
    k0_pay1 (k0_pay19 v19 v20 v21 v23 v25 v27 v33 v35 cst_16 v36) (k0_pay20 v19 v20 v21 v23 v25 v27 v33 v35 cst_16 v36)
        (k0_pay21 v19 v20 v21 v23 v25 v27 v33 v35 cst_16 v36) (k0_pay22 (F := Ideal)) i
      = guard (k0_pay19 v19 v20 v21 v23 v25 v27 v33 v35 cst_16 v36 i) := rfl

/-- The guarded denominator at row r. -/
theorem RowReads.gden (H : RowReads v19 v20 v21 v23 v25 v27 v33 v35 cst_16 v36 r n g) :
    k0_pay1 (k0_pay19 v19 v20 v21 v23 v25 v27 v33 v35 cst_16 v36) (k0_pay20 v19 v20 v21 v23 v25 v27 v33 v35 cst_16 v36)
        (k0_pay21 v19 v20 v21 v23 v25 v27 v33 v35 cst_16 v36) (k0_pay22 (F := Ideal)) (ix2 r 0)
      = guard (∑ k : Fin 32, Cert.Smooth.weight n (g k)) :=
  (pay1_guard v19 v20 v21 v23 v25 v27 v33 v35 cst_16 v36 (ix2 r 0)).trans (congrArg guard H.den)

/-- Column 0 of what is stored, at row r. -/
theorem RowReads.col0 (H : RowReads v19 v20 v21 v23 v25 v27 v33 v35 cst_16 v36 r n g) :
    k0_pay2 (k0_pay16 v19 v20 v21 v23 v25 v27 v33 v35 cst_16 v36) (k0_pay19 v19 v20 v21 v23 v25 v27 v33 v35 cst_16 v36)
        (k0_pay20 v19 v20 v21 v23 v25 v27 v33 v35 cst_16 v36) (k0_pay21 v19 v20 v21 v23 v25 v27 v33 v35 cst_16 v36)
        (k0_pay22 (F := Ideal)) (ix3 0 r 0) = smoothRow n g 0 :=
  (pay2_apply _ _ _ _ _ r).trans (congrArg₂ Ideal.div H.num0 H.gden)

/-- Column 1 of what is stored, at row r. -/
theorem RowReads.col1 (H : RowReads v19 v20 v21 v23 v25 v27 v33 v35 cst_16 v36 r n g) :
    k0_pay3 (k0_pay17 v19 v20 v21 v23 v25 v27 v33 v35 cst_16 v36) (k0_pay19 v19 v20 v21 v23 v25 v27 v33 v35 cst_16 v36)
        (k0_pay20 v19 v20 v21 v23 v25 v27 v33 v35 cst_16 v36) (k0_pay21 v19 v20 v21 v23 v25 v27 v33 v35 cst_16 v36)
        (k0_pay22 (F := Ideal)) (ix3 0 r 0) = smoothRow n g 1 :=
  (pay3_apply _ _ _ _ _ r).trans (congrArg₂ Ideal.div H.num1 H.gden)

/-- Column 2 of what is stored, at row r. -/
theorem RowReads.col2 (H : RowReads v19 v20 v21 v23 v25 v27 v33 v35 cst_16 v36 r n g) :
    k0_pay4 (k0_pay18 v19 v20 v21 v23 v25 v27 v33 v35 cst_16 v36) (k0_pay19 v19 v20 v21 v23 v25 v27 v33 v35 cst_16 v36)
        (k0_pay20 v19 v20 v21 v23 v25 v27 v33 v35 cst_16 v36) (k0_pay21 v19 v20 v21 v23 v25 v27 v33 v35 cst_16 v36)
        (k0_pay22 (F := Ideal)) (ix3 0 r 0) = smoothRow n g 2 :=
  (pay4_apply _ _ _ _ _ r).trans (congrArg₂ Ideal.div H.num2 H.gden)

end SecondHalf

/-! ## The first half hands the second what it reads -/

open Cert.Smooth in
/-- The first half of the body, over the loaded blocks, hands the second half what it reads. -/
theorem reads_of_loads (v0 : Vec Ideal S1x1000x3 .f32) (v22 v24 v26 : Vec Ideal S1x1000x32 .f32) (r : Fin 1000)
    (g : Fin 32 → Fin 3 → EReal) (h0 : ∀ k : Fin 32, v22 (ix3 0 r k) = g k 0) (h1 : ∀ k : Fin 32, v24 (ix3 0 r k) = g k 1)
    (h2 : ∀ k : Fin 32, v26 (ix3 0 r k) = g k 2) :
    RowReads (k0_pay6 v0) (k0_pay7 v0) (k0_pay8 v0) (k0_pay9 v22) (k0_pay10 v24) (k0_pay11 v26) (k0_pay12 v22 v24 v26)
      (k0_pay13 v22 v24 v26) (Scalar.ofBits (F := Ideal) .f32 0xBF800000#32) (k0_pay14 (F := Ideal)) r
      (fun e => v0 (ix3 0 r e)) g where
  h19 := pay6_apply v0 r
  h20 := pay7_apply v0 r
  h21 := pay8_apply v0 r
  h23 k := (pay9_apply v22 r k).trans (h0 k)
  h25 k := (pay10_apply v24 r k).trans (h1 k)
  h27 k := (pay11_apply v26 r k).trans (h2 k)
  h33 k := pay12_apply v22 v24 v26 r k (g k) (h0 k) (h1 k) (h2 k)
  h35 k := pay13_apply v22 v24 v26 r k (g k) (h0 k) (h1 k) (h2 k)
  h16 := rfl
  h36 _ := rfl

/-! ## The loads -/

/-- The load of the whole normals block reads the block. -/
theorem ld_whole (x0 : Vec Ideal S1x1000x3 .f32) (r : Fin 1000) (e : Fin 3) :
    View.ld x0 r0_0 (ix3 0 r e) = x0 (ix3 0 r e) :=
  congrArg x0 (funext fun a => match a with
    | ⟨0, _⟩ => Fin.ext (by show 0 + 1 * 0 = 0; rfl)
    | ⟨1, _⟩ => Fin.ext (by show 0 + 1 * r.val = r.val; omega)
    | ⟨2, _⟩ => Fin.ext (by show 0 + 1 * e.val = e.val; omega))

/-- Lanes 0 to 31 of the packed block hold the neighbours' first components. -/
theorem ld_lane0 (x1 : Vec Ideal S1x1000x96 .f32) (r : Fin 1000) (k : Fin 32) :
    View.ld x1 r0_1 (ix3 0 r k) = x1 (ix3 0 r (Cert.Smooth.lane 0 k)) :=
  congrArg x1 (funext fun a => match a with
    | ⟨0, _⟩ => Fin.ext (by show 0 + 1 * 0 = 0; rfl)
    | ⟨1, _⟩ => Fin.ext (by show 0 + 1 * r.val = r.val; omega)
    | ⟨2, _⟩ => Fin.ext (by show 0 + 1 * k.val = 32 * 0 + k.val; omega))

/-- Lanes 32 to 63 hold their second components. -/
theorem ld_lane1 (x1 : Vec Ideal S1x1000x96 .f32) (r : Fin 1000) (k : Fin 32) :
    View.ld x1 r0_2 (ix3 0 r k) = x1 (ix3 0 r (Cert.Smooth.lane 1 k)) :=
  congrArg x1 (funext fun a => match a with
    | ⟨0, _⟩ => Fin.ext (by show 0 + 1 * 0 = 0; rfl)
    | ⟨1, _⟩ => Fin.ext (by show 0 + 1 * r.val = r.val; omega)
    | ⟨2, _⟩ => Fin.ext (by show 32 + 1 * k.val = 32 * 1 + k.val; omega))

/-- Lanes 64 to 95 hold their third components. -/
theorem ld_lane2 (x1 : Vec Ideal S1x1000x96 .f32) (r : Fin 1000) (k : Fin 32) :
    View.ld x1 r0_3 (ix3 0 r k) = x1 (ix3 0 r (Cert.Smooth.lane 2 k)) :=
  congrArg x1 (funext fun a => match a with
    | ⟨0, _⟩ => Fin.ext (by show 0 + 1 * 0 = 0; rfl)
    | ⟨1, _⟩ => Fin.ext (by show 0 + 1 * r.val = r.val; omega)
    | ⟨2, _⟩ => Fin.ext (by show 64 + 1 * k.val = 32 * 2 + k.val; omega))

/-! ## The stores: three column rectangles, disjoint -/

/-- The first store's rectangle puts its row r at (0, r, 0), -/
theorem emb_col0 (r : Fin 1000) : r0_4.emb (ix3 (0 : Fin 1) r (0 : Fin 1)) = ix3 (0 : Fin 1) r (0 : Fin 3) :=
  funext fun a => match a with
    | ⟨0, _⟩ => Fin.ext (by show 0 + 1 * 0 = 0; rfl)
    | ⟨1, _⟩ => Fin.ext (by show 0 + 1 * r.val = r.val; omega)
    | ⟨2, _⟩ => Fin.ext (by show 0 + 1 * 0 = 0; rfl)

/-- the second's at (0, r, 1), -/
theorem emb_col1 (r : Fin 1000) : r0_5.emb (ix3 (0 : Fin 1) r (0 : Fin 1)) = ix3 (0 : Fin 1) r (1 : Fin 3) :=
  funext fun a => match a with
    | ⟨0, _⟩ => Fin.ext (by show 0 + 1 * 0 = 0; rfl)
    | ⟨1, _⟩ => Fin.ext (by show 0 + 1 * r.val = r.val; omega)
    | ⟨2, _⟩ => Fin.ext (by show 1 + 1 * 0 = 1; rfl)

/-- the third's at (0, r, 2). -/
theorem emb_col2 (r : Fin 1000) : r0_6.emb (ix3 (0 : Fin 1) r (0 : Fin 1)) = ix3 (0 : Fin 1) r (2 : Fin 3) :=
  funext fun a => match a with
    | ⟨0, _⟩ => Fin.ext (by show 0 + 1 * 0 = 0; rfl)
    | ⟨1, _⟩ => Fin.ext (by show 0 + 1 * r.val = r.val; omega)
    | ⟨2, _⟩ => Fin.ext (by show 2 + 1 * 0 = 2; rfl)

/-- A column below 2 is off the last store's rectangle. -/
theorem not_mem_col2 (r : Fin 1000) (d : Fin 3) (hd : d.val < 2) : ix3 (0 : Fin 1) r d ∉ r0_6.set := fun h => by
  have h2 : 2 ≤ d.val := ((Rect.mem_set_unit.mp h) (⟨2, Nat.lt_succ_self 2⟩ : Fin 3)).1
  omega

/-- Column 0 is off the middle store's rectangle. -/
theorem not_mem_col1 (r : Fin 1000) : ix3 (0 : Fin 1) r (0 : Fin 3) ∉ r0_5.set := fun h => by
  have h2 : 1 ≤ 0 := ((Rect.mem_set_unit.mp h) (⟨2, Nat.lt_succ_self 2⟩ : Fin 3)).1
  omega

/-- Of the three column stores, the last holds column 2, -/
theorem canon3_col2 (w2 w1 w0 : Vec Ideal S1x1000x1 .f32) (r : Fin 1000) :
    View.canon ([⟨r0_6, w2⟩, ⟨r0_5, w1⟩, ⟨r0_4, w0⟩] : List (View.Piece (Elt Ideal) S1x1000x3 .f32)) (ix3 (0 : Fin 1) r (2 : Fin 3))
      = w2 (ix3 0 r 0) := by
  rw [← emb_col2 r]
  exact View.canon_cons_emb r0_6 w2 _ _

/-- the middle one column 1, -/
theorem canon3_col1 (w2 w1 w0 : Vec Ideal S1x1000x1 .f32) (r : Fin 1000) :
    View.canon ([⟨r0_6, w2⟩, ⟨r0_5, w1⟩, ⟨r0_4, w0⟩] : List (View.Piece (Elt Ideal) S1x1000x3 .f32)) (ix3 (0 : Fin 1) r (1 : Fin 3))
      = w1 (ix3 0 r 0) := by
  refine (View.canon_cons_of_not_mem ⟨r0_6, w2⟩ _ (not_mem_col2 r 1 (by decide))).trans ?_
  rw [← emb_col1 r]
  exact View.canon_cons_emb r0_5 w1 _ _

/-- and the first column 0. -/
theorem canon3_col0 (w2 w1 w0 : Vec Ideal S1x1000x1 .f32) (r : Fin 1000) :
    View.canon ([⟨r0_6, w2⟩, ⟨r0_5, w1⟩, ⟨r0_4, w0⟩] : List (View.Piece (Elt Ideal) S1x1000x3 .f32)) (ix3 (0 : Fin 1) r (0 : Fin 3))
      = w0 (ix3 0 r 0) := by
  refine (View.canon_cons_of_not_mem ⟨r0_6, w2⟩ _ (not_mem_col2 r 0 (by decide))).trans ?_
  refine (View.canon_cons_of_not_mem ⟨r0_5, w1⟩ _ (not_mem_col1 r)).trans ?_
  rw [← emb_col0 r]
  exact View.canon_cons_emb r0_4 w0 _ _

/-! ## The block -/

open Cert.Smooth in
/-- ONE GRID POINT: what the body leaves in its output block is, row by row, the specification of the row's normal and
    its 32 packed neighbours. -/
theorem out_block (x0 : Vec Ideal S1x1000x3 .f32) (x1 : Vec Ideal S1x1000x96 .f32) (r : Fin 1000) (d : Fin 3) :
    out0_2 (F := Ideal) x0 x1 (ix3 0 r d)
      = Cert.Smooth.smoothRow (fun e => x0 (ix3 0 r e)) (fun k e => x1 (ix3 0 r (Cert.Smooth.lane e k))) d := by
  have H := reads_of_loads (View.ld x0 r0_0) (View.ld x1 r0_1) (View.ld x1 r0_2) (View.ld x1 r0_3) r
    (fun k e => x1 (ix3 0 r (lane e k))) (ld_lane0 x1 r) (ld_lane1 x1 r) (ld_lane2 x1 r)
  have hn : (fun e => View.ld x0 r0_0 (ix3 0 r e)) = fun e => x0 (ix3 0 r e) := funext (ld_whole x0 r)
  rw [hn] at H
  unfold out0_2
  match d with
  | ⟨0, _⟩ => exact (canon3_col0 _ _ _ r).trans H.col0
  | ⟨1, _⟩ => exact (canon3_col1 _ _ _ r).trans H.col1
  | ⟨2, _⟩ => exact (canon3_col2 _ _ _ r).trans H.col2

end Cert.Smooth.Body

end
-- ==== Proof.SmoothArray.lean ====
/-
  From one grid point's block to the whole array.

  The kernel's host prefix gathers each point's 32 neighbour normals ([4,100000,32,3]), swaps the last two axes and
  flattens them: the packed row of point (b, p) keeps component `e` of neighbour `k` at lane 32·e + k.  The grid
  has one point per (batch b, run of 1000 points): its three blocks are rows 1000·q … 1000·q + 999 of batch b of the
  normals, of the packed neighbours and of the result.  Since the body treats each row by itself (the block lemma),
  what a grid point writes back is its block of ONE whole-array function, `smooth` of the normals and of the gathered
  neighbours; the blocks tile the result array, so after the run it holds that function.
-/
import proofs.«428989_j52682068853044_3_alg».proof.Proof.Gen.KernelIdeal.Value
import proofs.«428989_j52682068853044_3_alg».proof.Proof.SmoothSpec
import Idealize.ShloMosaic.Lib.Pipeline.Value
import Idealize.ShloMosaic.Lib.ValueIdx
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.Smooth.Arr

open Cert.KernelIdeal Cert.KernelIdeal.Gen Cert.KernelIdeal.Value Cert.Smooth

variable (m : (ℓ : Loc nD τ sig) → Buf (Elt Ideal) ℓ) (ρ : Dev nD → PrngReg)

/-! ## The gathered neighbours, and their packed rows -/

/-- The neighbour indices as the gather takes them: a negative index counted from the end, then a trailing unit axis. -/
def startIdx (idx : (⟨S4x100000x32, .i32⟩ : BufTy).Contents (Elt Ideal)) : (⟨S4x100000x32x1, .i32⟩ : BufTy).Contents (Elt Ideal) :=
  broadcastInDim S4x100000x32x1 ![0, 1, 2] bcast_S4x100000x32_S4x100000x32x1_0_1_2
    (select (cmpi .slt idx (broadcastInDim S4x100000x32 ![] bcast_S_S4x100000x32 (constantI S_ 32 0#32)))
      (addi idx (broadcastInDim S4x100000x32 ![] bcast_S_S4x100000x32 (constantI S_ 32 100000#32))) idx)

/-- The gathered neighbours: `nbrs nrm idx (b, p, k, ·)` is the normal of batch `b` at the point `idx (b, p, k)` names. -/
def nbrs (nrm : (⟨S4x100000x3, .f32⟩ : BufTy).Contents (Elt Ideal)) (idx : (⟨S4x100000x32, .i32⟩ : BufTy).Contents (Elt Ideal)) :
    (⟨S4x100000x32x3, .f32⟩ : BufTy).Contents (Elt Ideal) :=
  Host.gather gather_S4x100000x3_S4x100000x32x1_S4x100000x32x3_3_1_0_0_1_3_113 nrm (startIdx idx)

/-- A neighbour array with its last two axes swapped and flattened, read at (b, p, lane of (e, k)), is the array at
    (b, p, k, e): the row-major positions ((b·100000 + p)·3 + e)·32 + k and (b·100000 + p)·96 + (32·e + k) are one number. -/
theorem packed_apply (nbr : S4x100000x32x3.Idx → EReal) (b : Fin 4) (p : Fin 100000) (e : Fin 3) (k : Fin 32) :
    shapeCast S4x100000x96 (transpose S4x100000x3x32 [0, 1, 3, 2] nbr transposes_S4x100000x32x3_S4x100000x3x32_0_1_3_2)
        shapeCasts_S4x100000x3x32_S4x100000x96 (ix3 b p (lane e k))
      = nbr (ix4 b p k e) := by
  refine (shapeCast_apply _ shapeCasts_S4x100000x3x32_S4x100000x96 (ix3 b p (lane e k)) (ix4 b p e k) ?_).trans ?_
  · rw [Shape.rowMajor_val_four, Shape.rowMajor_val_three]
    show (((b.val * 100000 + p.val) * 3 + e.val) * 32 + k.val) = ((b.val * 100000 + p.val) * 96 + (32 * e.val + k.val))
    omega
  · exact transpose_apply _ nbr transposes_S4x100000x32x3_S4x100000x3x32_0_1_3_2 (ix4 b p e k) (ix4 b p k e) (fun a =>
      match a with
      | ⟨0, _⟩ => rfl
      | ⟨1, _⟩ => rfl
      | ⟨2, _⟩ => rfl
      | ⟨3, _⟩ => rfl)

/-- What the region finds in its second operand: the gathered neighbours of the launch arrays, packed. -/
theorem V_packed (c : Dev nD) :
    (V m c main_v8 : S4x100000x96.Idx → EReal)
      = shapeCast S4x100000x96 (transpose S4x100000x3x32 [0, 1, 3, 2]
          (nbrs (m ((c : Thread nD τ).loc main_arg0)) (m ((c : Thread nD τ).loc main_arg1)))
          transposes_S4x100000x32x3_S4x100000x3x32_0_1_3_2) shapeCasts_S4x100000x3x32_S4x100000x96 := by
  dsimp only [V, hostOps0]
  after_results
  rfl

/-! ## The grid: point `t` is batch `t / 100`, run `t % 100` of 1000 points -/

/-- The printed index maps, decided over the 400 grid points: every window's block index is (t / 100, t % 100, 0). -/
theorem idx_facts : ∀ t : Fin cfg0.N,
    (win0_0.index t (0 : Fin 3) = t.val / 100 ∧ win0_0.index t (1 : Fin 3) = t.val % 100 ∧ win0_0.index t (2 : Fin 3) = 0)
    ∧ (win0_1.index t (0 : Fin 3) = t.val / 100 ∧ win0_1.index t (1 : Fin 3) = t.val % 100 ∧ win0_1.index t (2 : Fin 3) = 0)
    ∧ (win0_2.index t (0 : Fin 3) = t.val / 100 ∧ win0_2.index t (1 : Fin 3) = t.val % 100 ∧ win0_2.index t (2 : Fin 3) = 0) :=
  (by decide +kernel : ∀ t : Fin grid0.N, _)

theorem t_lt (t : Fin cfg0.N) : t.val < 400 := Nat.lt_of_lt_of_eq t.isLt N_0

/-- The batch of grid point `t`. -/
abbrev batchOf (t : Fin cfg0.N) : Fin 4 := ⟨t.val / 100, by have := t_lt t; omega⟩
/-- The array row of row `r` of grid point `t`'s blocks. -/
abbrev rowOf (t : Fin cfg0.N) (r : Fin 1000) : Fin 100000 := ⟨t.val % 100 * 1000 + r.val, by have := r.isLt; omega⟩

/-- Row `r` of the normals block at point `t` is row `rowOf t r` of batch `batchOf t` of the launch array. -/
theorem nrm_block (c : Dev nD) (t : Fin cfg0.N) (r : Fin 1000) (e : Fin 3) :
    (iblk m c 0 t : Vec Ideal S1x1000x3 .f32) (ix3 0 r e)
      = (m ((c : Thread nD τ).loc main_arg0) : S4x100000x3.Idx → EReal) (ix3 (batchOf t) (rowOf t r) e) := by
  obtain ⟨⟨e0, e1, e2⟩, -, -⟩ := idx_facts t
  unfold iblk
  rw [View.read_apply]
  refine (congrFun (V_main_arg0 m c) _).trans ?_
  congr 1
  funext a
  apply Fin.ext
  match a with
  | ⟨0, _⟩ => show win0_0.index t (0 : Fin 3) * 1 + 1 * 0 = t.val / 100; rw [e0]; omega
  | ⟨1, _⟩ => show win0_0.index t (1 : Fin 3) * 1000 + 1 * r.val = t.val % 100 * 1000 + r.val; rw [e1]; omega
  | ⟨2, _⟩ => show win0_0.index t (2 : Fin 3) * 3 + 1 * e.val = e.val; rw [e2]; omega

/-- Row `r` of the packed-neighbour block at point `t` is the same row of what the region finds in its second operand. -/
theorem pk_block (c : Dev nD) (t : Fin cfg0.N) (r : Fin 1000) (l : Fin 96) :
    (iblk m c 1 t : Vec Ideal S1x1000x96 .f32) (ix3 0 r l)
      = (V m c main_v8 : S4x100000x96.Idx → EReal) (ix3 (batchOf t) (rowOf t r) l) := by
  obtain ⟨-, ⟨e0, e1, e2⟩, -⟩ := idx_facts t
  unfold iblk
  rw [View.read_apply]
  show (V m c main_v8 : S4x100000x96.Idx → EReal) _ = _
  congr 1
  funext a
  apply Fin.ext
  match a with
  | ⟨0, _⟩ => show win0_1.index t (0 : Fin 3) * 1 + 1 * 0 = t.val / 100; rw [e0]; omega
  | ⟨1, _⟩ => show win0_1.index t (1 : Fin 3) * 1000 + 1 * r.val = t.val % 100 * 1000 + r.val; rw [e1]; omega
  | ⟨2, _⟩ => show win0_1.index t (2 : Fin 3) * 96 + 1 * l.val = l.val; rw [e2]; omega

/-- Where row `r`, column `d` of the result block at point `t` lies in the result array. -/
theorem out_emb (t : Fin cfg0.N) (r : Fin 1000) (d : Fin 3) :
    ((cfg0.win 2).blk t).view.emb (ix3 0 r d) = (ix3 (batchOf t) (rowOf t r) d : S4x100000x3.Idx) := by
  obtain ⟨-, -, ⟨e0, e1, e2⟩⟩ := idx_facts t
  funext a
  apply Fin.ext
  match a with
  | ⟨0, _⟩ => show win0_2.index t (0 : Fin 3) * 1 + 1 * 0 = t.val / 100; rw [e0]; omega
  | ⟨1, _⟩ => show win0_2.index t (1 : Fin 3) * 1000 + 1 * r.val = t.val % 100 * 1000 + r.val; rw [e1]; omega
  | ⟨2, _⟩ => show win0_2.index t (2 : Fin 3) * 3 + 1 * d.val = d.val; rw [e2]; omega

/-- An index of the result array is in point `t`'s block iff each coordinate is in the block's range on its axis. -/
theorem mem_blk (t : Fin cfg0.N) (i : S4x100000x3.Idx) :
    i ∈ ((cfg0.win 2).blk t).view.set ↔ ∀ a : Fin 3, win0_2.index t a * S1x1000x3.size a ≤ (i a).val ∧ (i a).val < win0_2.index t a * S1x1000x3.size a + S1x1000x3.size a := by
  show i ∈ ((View.whole main_v9).slice (win0_2.rect t)).set ↔ _
  rw [View.set_slice_whole, Rect.mem_set_unit]
  exact Iff.rfl

/-- The blocks tile the result array: index (b, p, d) is in the block of grid point 100·b + p / 1000. -/
theorem cover (i : S4x100000x3.Idx) : ∃ t : Fin cfg0.N, (cfg0.win 2).flush t = true ∧ i ∈ ((cfg0.win 2).blk t).view.set := by
  have h0 : (i 0).val < 4 := (i 0).isLt
  have h1 : (i 1).val < 100000 := (i 1).isLt
  have h2 : (i 2).val < 3 := (i 2).isLt
  have hN : cfg0.N = 400 := N_0
  have ht : (i 0).val * 100 + (i 1).val / 1000 < cfg0.N := by rw [hN]; omega
  obtain ⟨-, -, ⟨e0, e1, e2⟩⟩ := idx_facts ⟨(i 0).val * 100 + (i 1).val / 1000, ht⟩
  refine ⟨⟨(i 0).val * 100 + (i 1).val / 1000, ht⟩, flush0_2 _, ?_⟩
  rw [mem_blk]
  intro a
  match a with
  | ⟨0, _⟩ =>
    show win0_2.index ⟨(i 0).val * 100 + (i 1).val / 1000, ht⟩ (0 : Fin 3) * 1 ≤ (i 0).val ∧ (i 0).val < win0_2.index ⟨(i 0).val * 100 + (i 1).val / 1000, ht⟩ (0 : Fin 3) * 1 + 1
    rw [e0]; show ((i 0).val * 100 + (i 1).val / 1000) / 100 * 1 ≤ (i 0).val ∧ (i 0).val < ((i 0).val * 100 + (i 1).val / 1000) / 100 * 1 + 1
    omega
  | ⟨1, _⟩ =>
    show win0_2.index ⟨(i 0).val * 100 + (i 1).val / 1000, ht⟩ (1 : Fin 3) * 1000 ≤ (i 1).val ∧ (i 1).val < win0_2.index ⟨(i 0).val * 100 + (i 1).val / 1000, ht⟩ (1 : Fin 3) * 1000 + 1000
    rw [e1]; show ((i 0).val * 100 + (i 1).val / 1000) % 100 * 1000 ≤ (i 1).val ∧ (i 1).val < ((i 0).val * 100 + (i 1).val / 1000) % 100 * 1000 + 1000
    omega
  | ⟨2, _⟩ =>
    show win0_2.index ⟨(i 0).val * 100 + (i 1).val / 1000, ht⟩ (2 : Fin 3) * 3 ≤ (i 2).val ∧ (i 2).val < win0_2.index ⟨(i 0).val * 100 + (i 1).val / 1000, ht⟩ (2 : Fin 3) * 3 + 3
    rw [e2]; omega

/-! ## What a grid point writes back, and the array after the run -/

/-- The body treats each row by itself: row `r`, column `d` of what it leaves in the result block is `smoothRow` of row
    `r` of the normals block and of row `r` of the packed-neighbour block, unpacked. (The block lemma; proved apart.) -/
def RowWise : Prop :=
  ∀ (x0 : Vec Ideal S1x1000x3 .f32) (x1 : Vec Ideal S1x1000x96 .f32) (r : Fin 1000) (d : Fin 3),
    out0_2 (F := Ideal) x0 x1 (ix3 0 r d)
      = smoothRow (fun e => x0 (ix3 0 r e)) (fun k e => x1 (ix3 0 r (lane e k))) d

/-- The whole result: `smooth` of the launch normals and of their gathered neighbours. -/
abbrev result (c : Dev nD) : S4x100000x3.Idx → EReal :=
  smooth (m ((c : Thread nD τ).loc main_arg0))
    (nbrs (m ((c : Thread nD τ).loc main_arg0)) (m ((c : Thread nD τ).loc main_arg1)))

/-- What the body leaves at an index of point `t`'s result block is the whole result at that index's place in the array:
    the two input rows are the array rows of the same point, and the packed row unpacks to the gathered neighbours. -/
theorem block_row (hb : RowWise) (c : Dev nD) (t : Fin cfg0.N) (j : S1x1000x3.Idx) :
    out0_2 (F := Ideal) (iblk m c 0 t) (iblk m c 1 t) j = result m c (((cfg0.win 2).blk t).view.emb j) := by
  obtain ⟨z, r, d, rfl⟩ : ∃ (z : Fin 1) (r : Fin 1000) (d : Fin 3), j = ix3 z r d := ⟨j 0, j 1, j 2, eq_ix3 j⟩
  obtain rfl : z = 0 := Subsingleton.elim _ _
  have hrow : (fun e : Fin 3 => (iblk m c 0 t : Vec Ideal S1x1000x3 .f32) (ix3 0 r e))
      = fun e : Fin 3 => (m ((c : Thread nD τ).loc main_arg0) : S4x100000x3.Idx → EReal) (ix3 (batchOf t) (rowOf t r) e) :=
    funext fun e => nrm_block m c t r e
  have hnb : (fun (k : Fin 32) (e : Fin 3) => (iblk m c 1 t : Vec Ideal S1x1000x96 .f32) (ix3 0 r (lane e k)))
      = fun (k : Fin 32) (e : Fin 3) =>
          nbrs (m ((c : Thread nD τ).loc main_arg0)) (m ((c : Thread nD τ).loc main_arg1)) (ix4 (batchOf t) (rowOf t r) k e) :=
    funext fun k => funext fun e =>
      (pk_block m c t r (lane e k)).trans
        ((congrFun (V_packed m c) (ix3 (batchOf t) (rowOf t r) (lane e k))).trans
          (packed_apply _ (batchOf t) (rowOf t r) e k))
  refine (hb (iblk m c 0 t) (iblk m c 1 t) r d).trans ?_
  refine (congrArg (fun f => smoothRow f _ d) hrow).trans ?_
  refine (congrArg (fun g => smoothRow _ g d) hnb).trans ?_
  exact (congrArg (result m c) (out_emb t r d)).symm

/-- WHAT POINT `t` WRITES BACK is its block of the whole result. -/
theorem flushed_eq (hb : RowWise) (c : Dev nD) (t : Fin cfg0.N) :
    (dats m 0 c).flushed 2 t = ((cfg0.win 2).blk t).view.read (Elt Ideal) (result m c) := by
  rw [flushed2]
  funext j
  exact block_row m hb c t j

/-- The result array after the run is the whole result: every point writes its block of it, and the blocks tile the array. -/
theorem final (hb : RowWise) (c : Dev nD) : (dats m 0 c).arrAt 2 cfg0.N = result m c :=
  (dats m 0 c).arrAt_eq_of_cover 2 (result m c) (fun t _ => flushed_eq m hb c t) cover

/-- The kernel's run, read: the result array at `smooth` of the launch arrays, the arguments unchanged. -/
theorem run (hb : RowWise) : θ_run defs (onTc (τ := τ) (main (F := Ideal))) ⟨m, fun _ => 0, ρ⟩ fun r => ∀ c : Dev nD,
      r.2.mem ((c : Thread nD τ).loc main_v9) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m hb c), (h c).2⟩) (Value.run_blocks m ρ)

end Cert.Smooth.Arr

end
-- ==== Proof.lean ====
/-
  Smoothing a field of normals by its neighbours: the kernel against its jnp reference, over the extended reals.

  Both programs take the normals (a normal per batch and point) and, per point, the indices of 32 neighbours.
  Both first gather the neighbours' normals with the same index rule (a negative index counts from the end), so
  the gathered array is ONE term of the two arguments on both sides and is never opened.  From there:

    the reference works on whole arrays: unit normals of the points and of the gathered neighbours (each divided
    by its guarded length), the squared distance of each neighbour's unit normal to the point's summed over the
    three components, the Gaussian weight of that, and the neighbours' raw normals averaged by the weights with a
    guarded denominator;

    the kernel packs each point's neighbours into one row of 96 lanes (component e of neighbour k at lane 32·e + k),
    cuts the arrays into blocks of 1000 points of one batch, and computes the same quantities row by row inside a
    block, the three components as three 32-lane slices, the sums over neighbours as lane sums.

  The specification `Cert.Smooth.smooth` (SmoothSpec) says it once, point by point.  The reference's result is that
  function of the arguments and the gathered array, stage by stage (SmoothRef).  One grid point's body leaves, in
  each row of its result block, that function of the same row of its two input blocks (SmoothBody); the blocks are
  the rows of the arrays and tile the result, so after the run the result array holds the function (SmoothArray).
  The two sides differ only in how sums are spelt (started from the zero word or not, added left to right or as a
  sum over an index, 0 − x or −x): laws of a commutative monoid, which hold at the infinities too, so the
  precondition is never opened.  The kernel's idealization rewrote nothing, so `preserves` has nothing to state.
-/
import proofs.«428989_j52682068853044_3_alg».proof.Defs
import proofs.«428989_j52682068853044_3_alg».proof.Proof.Gen.Kernel
import proofs.«428989_j52682068853044_3_alg».proof.Proof.Gen.Kernel.Skeleton
import proofs.«428989_j52682068853044_3_alg».proof.Proof.Gen.Kernel.Launch
import proofs.«428989_j52682068853044_3_alg».proof.Proof.Gen.Kernel.Points
import proofs.«428989_j52682068853044_3_alg».proof.Proof.Gen.Kernel.Frame
import proofs.«428989_j52682068853044_3_alg».proof.Proof.Gen.KernelIdeal
import proofs.«428989_j52682068853044_3_alg».proof.Proof.Gen.KernelIdeal.Skeleton
import proofs.«428989_j52682068853044_3_alg».proof.Proof.Gen.KernelIdeal.Launch
import proofs.«428989_j52682068853044_3_alg».proof.Proof.Gen.KernelIdeal.Points
import proofs.«428989_j52682068853044_3_alg».proof.Proof.Gen.KernelIdeal.Frame
import proofs.«428989_j52682068853044_3_alg».proof.Proof.Gen.ReferenceIdeal
import proofs.«428989_j52682068853044_3_alg».proof.Proof.Gen.Pre_finite_inputs
import proofs.«428989_j52682068853044_3_alg».proof.Proof.Gen.KernelIdeal.Value
import proofs.«428989_j52682068853044_3_alg».proof.Proof.Gen.ReferenceIdeal.Run
import proofs.«428989_j52682068853044_3_alg».proof.Proof.Gen.ReferenceIdeal.Read
import proofs.«428989_j52682068853044_3_alg».proof.Proof.SmoothSpec
import proofs.«428989_j52682068853044_3_alg».proof.Proof.SmoothRef
import proofs.«428989_j52682068853044_3_alg».proof.Proof.SmoothBody
import proofs.«428989_j52682068853044_3_alg».proof.Proof.SmoothArray
import Idealize.ShloMosaic.Adequacy
import Idealize.ShloMosaic.Init

noncomputable section

namespace Cert.Proof

open Idealize.ShloMosaic Idealize.SL.Sem

/-- The neighbours as the reference's first stages gather them and as the kernel's host prefix does: one term of the
    two arguments (the same index rule, the same gather). -/
theorem nbrs_eq (x0 : (⟨Cert.KernelIdeal.S4x100000x3, .f32⟩ : BufTy).Contents (Elt Ideal))
    (x1 : (⟨Cert.KernelIdeal.S4x100000x32, .i32⟩ : BufTy).Contents (Elt Ideal)) :
    Cert.ReferenceIdeal.Read.val_main_v6 (F := Ideal) x0 x1 = Cert.Smooth.Arr.nbrs x0 x1 := rfl

/-- The kernel as printed runs, and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs: its run read back, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the two arguments both programs end with the result array at `smooth` of the normals
    and of their gathered neighbours. -/
theorem algebraic : Cert.algebraic_KernelIdeal_ReferenceIdeal := by
  intro m ρ m' ρ' _ hagree
  refine ⟨fun c => Cert.Smooth.Arr.result m c, Cert.Smooth.Arr.run m ρ Cert.Smooth.Body.out_block, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v56_eq, Cert.Smooth.Ref.ref_is_smooth, (hagree c).1, (hagree c).2, nbrs_eq]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
